-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x25x64 : Shape := ⟨3, ![4096, 25, 64]⟩
abbrev S4096x55x64 : Shape := ⟨3, ![4096, 55, 64]⟩
abbrev S1000 : Shape := ⟨1, ![1000]⟩
abbrev S_ : Shape := ⟨0, ![]⟩

class Facts : Prop where
  bcast_S_S4096x25x64 : S_.BroadcastsInDim S4096x25x64 (![] : Fin 0 → Fin S4096x25x64.rank)
  reducesTo_S4096x25x64_S_d0_1_2 : S4096x25x64.ReducesTo [0, 1, 2] S_
  h_S_ : 0 < S_.numel
  bcast_S_S4096x55x64 : S_.BroadcastsInDim S4096x55x64 (![] : Fin 0 → Fin S4096x55x64.rank)
  reducesTo_S4096x55x64_S_d0_1_2 : S4096x55x64.ReducesTo [0, 1, 2] S_
  bcast_S_S1000 : S_.BroadcastsInDim S1000 (![] : Fin 0 → Fin S1000.rank)
  reducesTo_S1000_S_d0 : S1000.ReducesTo [0] S_

variable [Facts]

def fn_part2 {F : FTy → Type} [FloatOps F] (main_arg6 : IVec S1000 32) (main_arg7 : IVec S1000 32) (main_v30 : IVec S_ 1) (main_v32 : IVec S1000 1) : IVec S_ 1 :=
  let main_c_13 : IVec S_ 1 := constantI S_ 1 1#1
  let main_v33 : IVec S_ 1 := (fun x v => Host.reduce IntOp.andi x v reducesTo_S1000_S_d0 h_S_) main_v32 main_c_13
  let main_v34 : IVec S_ 1 := andi main_v30 main_v33
  let main_c_14 : IVec S_ 32 := constantI S_ 32 25#32
  let main_v35 : IVec S1000 32 := broadcastInDim S1000 ![] bcast_S_S1000 main_c_14
  let main_v36 : IVec S1000 1 := cmpi .slt main_arg6 main_v35
  let main_c_15 : IVec S_ 1 := constantI S_ 1 1#1
  let main_v37 : IVec S_ 1 := (fun x v => Host.reduce IntOp.andi x v reducesTo_S1000_S_d0 h_S_) main_v36 main_c_15
  let main_v38 : IVec S_ 1 := andi main_v34 main_v37
  let main_c_16 : IVec S_ 32 := constantI S_ 32 0#32
  let main_v39 : IVec S1000 32 := broadcastInDim S1000 ![] bcast_S_S1000 main_c_16
  let main_v40 : IVec S1000 1 := cmpi .sge main_arg7 main_v39
  let main_c_17 : IVec S_ 1 := constantI S_ 1 1#1
  let main_v41 : IVec S_ 1 := (fun x v => Host.reduce IntOp.andi x v reducesTo_S1000_S_d0 h_S_) main_v40 main_c_17
  let main_v42 : IVec S_ 1 := andi main_v38 main_v41
  let main_c_18 : IVec S_ 32 := constantI S_ 32 55#32
  let main_v43 : IVec S1000 32 := broadcastInDim S1000 ![] bcast_S_S1000 main_c_18
  let main_v44 : IVec S1000 1 := cmpi .slt main_arg7 main_v43
  let main_c_19 : IVec S_ 1 := constantI S_ 1 1#1
  let main_v45 : IVec S_ 1 := (fun x v => Host.reduce IntOp.andi x v reducesTo_S1000_S_d0 h_S_) main_v44 main_c_19
  let main_v46 : IVec S_ 1 := andi main_v42 main_v45
  main_v46

def fn_part1 {F : FTy → Type} [FloatOps F] (main_arg4 : IVec S1000 32) (main_arg5 : IVec S1000 32) (main_arg6 : IVec S1000 32) (main_arg7 : IVec S1000 32) (main_v13 : IVec S_ 1) (main_v16 : IVec S1000 1) : IVec S_ 1 :=
  let main_c_5 : IVec S_ 1 := constantI S_ 1 1#1
  let main_v17 : IVec S_ 1 := (fun x v => Host.reduce IntOp.andi x v reducesTo_S1000_S_d0 h_S_) main_v16 main_c_5
  let main_v18 : IVec S_ 1 := andi main_v13 main_v17
  let main_c_6 : IVec S_ 32 := constantI S_ 32 0#32
  let main_v19 : IVec S1000 32 := broadcastInDim S1000 ![] bcast_S_S1000 main_c_6
  let main_v20 : IVec S1000 1 := cmpi .sge main_arg4 main_v19
  let main_c_7 : IVec S_ 1 := constantI S_ 1 1#1
  let main_v21 : IVec S_ 1 := (fun x v => Host.reduce IntOp.andi x v reducesTo_S1000_S_d0 h_S_) main_v20 main_c_7
  let main_v22 : IVec S_ 1 := andi main_v18 main_v21
  let main_c_8 : IVec S_ 32 := constantI S_ 32 0#32
  let main_v23 : IVec S1000 32 := broadcastInDim S1000 ![] bcast_S_S1000 main_c_8
  let main_v24 : IVec S1000 1 := cmpi .sge main_arg5 main_v23
  let main_c_9 : IVec S_ 1 := constantI S_ 1 1#1
  let main_v25 : IVec S_ 1 := (fun x v => Host.reduce IntOp.andi x v reducesTo_S1000_S_d0 h_S_) main_v24 main_c_9
  let main_v26 : IVec S_ 1 := andi main_v22 main_v25
  let main_c_10 : IVec S_ 32 := constantI S_ 32 25#32
  let main_v27 : IVec S1000 32 := broadcastInDim S1000 ![] bcast_S_S1000 main_c_10
  let main_v28 : IVec S1000 1 := cmpi .slt main_arg5 main_v27
  let main_c_11 : IVec S_ 1 := constantI S_ 1 1#1
  let main_v29 : IVec S_ 1 := (fun x v => Host.reduce IntOp.andi x v reducesTo_S1000_S_d0 h_S_) main_v28 main_c_11
  let main_v30 : IVec S_ 1 := andi main_v26 main_v29
  let main_c_12 : IVec S_ 32 := constantI S_ 32 0#32
  let main_v31 : IVec S1000 32 := broadcastInDim S1000 ![] bcast_S_S1000 main_c_12
  let main_v32 : IVec S1000 1 := cmpi .sge main_arg6 main_v31
  fn_part2 (F := F) main_arg6 main_arg7 main_v30 main_v32

def fn {F : FTy → Type} [FloatOps F] (main_arg0 : FVec F S4096x25x64 .f32) (main_arg1 : FVec F S4096x25x64 .f32) (main_arg2 : FVec F S4096x55x64 .f32) (main_arg3 : FVec F S1000 .f32) (main_arg4 : IVec S1000 32) (main_arg5 : IVec S1000 32) (main_arg6 : IVec S1000 32) (main_arg7 : IVec S1000 32) : IVec S_ 1 :=
  let main_v0 : FVec F S4096x25x64 .f32 := Host.absf main_arg0
  let main_cst : FVec F S_ .f32 := constant S_ .f32 0x7F800000#32
  let main_v1 : FVec F S4096x25x64 .f32 := broadcastInDim S4096x25x64 ![] bcast_S_S4096x25x64 main_cst
  let main_v2 : IVec S4096x25x64 1 := cmpf .olt main_v0 main_v1
  let main_c : IVec S_ 1 := constantI S_ 1 1#1
  let main_v3 : IVec S_ 1 := (fun x v => Host.reduce IntOp.andi x v reducesTo_S4096x25x64_S_d0_1_2 h_S_) main_v2 main_c
  let main_v4 : FVec F S4096x25x64 .f32 := Host.absf main_arg1
  let main_cst_0 : FVec F S_ .f32 := constant S_ .f32 0x7F800000#32
  let main_v5 : FVec F S4096x25x64 .f32 := broadcastInDim S4096x25x64 ![] bcast_S_S4096x25x64 main_cst_0
  let main_v6 : IVec S4096x25x64 1 := cmpf .olt main_v4 main_v5
  let main_c_1 : IVec S_ 1 := constantI S_ 1 1#1
  let main_v7 : IVec S_ 1 := (fun x v => Host.reduce IntOp.andi x v reducesTo_S4096x25x64_S_d0_1_2 h_S_) main_v6 main_c_1
  let main_v8 : IVec S_ 1 := andi main_v3 main_v7
  let main_v9 : FVec F S4096x55x64 .f32 := Host.absf main_arg2
  let main_cst_2 : FVec F S_ .f32 := constant S_ .f32 0x7F800000#32
  let main_v10 : FVec F S4096x55x64 .f32 := broadcastInDim S4096x55x64 ![] bcast_S_S4096x55x64 main_cst_2
  let main_v11 : IVec S4096x55x64 1 := cmpf .olt main_v9 main_v10
  let main_c_3 : IVec S_ 1 := constantI S_ 1 1#1
  let main_v12 : IVec S_ 1 := (fun x v => Host.reduce IntOp.andi x v reducesTo_S4096x55x64_S_d0_1_2 h_S_) main_v11 main_c_3
  let main_v13 : IVec S_ 1 := andi main_v8 main_v12
  let main_v14 : FVec F S1000 .f32 := Host.absf main_arg3
  let main_cst_4 : FVec F S_ .f32 := constant S_ .f32 0x7F800000#32
  let main_v15 : FVec F S1000 .f32 := broadcastInDim S1000 ![] bcast_S_S1000 main_cst_4
  let main_v16 : IVec S1000 1 := cmpf .olt main_v14 main_v15
  fn_part1 (F := F) main_arg4 main_arg5 main_arg6 main_arg7 main_v13 main_v16
-- ==== Kernel.lean ====
abbrev S4096x25x64 : Shape := ⟨3, ![4096, 25, 64]⟩
abbrev S4096x55x64 : Shape := ⟨3, ![4096, 55, 64]⟩
abbrev S1000 : Shape := ⟨1, ![1000]⟩
abbrev S1000x1 : Shape := ⟨2, ![1000, 1]⟩
abbrev S1x25 : Shape := ⟨2, ![1, 25]⟩
abbrev S1000x25 : Shape := ⟨2, ![1000, 25]⟩
abbrev S1x55 : Shape := ⟨2, ![1, 55]⟩
abbrev S1000x55 : Shape := ⟨2, ![1000, 55]⟩
abbrev S25x1000 : Shape := ⟨2, ![25, 1000]⟩
abbrev S25x4096x64 : Shape := ⟨3, ![25, 4096, 64]⟩
abbrev S25x262144 : Shape := ⟨2, ![25, 262144]⟩
abbrev S55x4096x64 : Shape := ⟨3, ![55, 4096, 64]⟩
abbrev S55x262144 : Shape := ⟨2, ![55, 262144]⟩
abbrev S25x2048 : Shape := ⟨2, ![25, 2048]⟩
abbrev S55x2048 : Shape := ⟨2, ![55, 2048]⟩
abbrev S1000x2048 : Shape := ⟨2, ![1000, 2048]⟩

abbrev nBuf : Space → Nat
  | .hbm => 50
  | .vmem => 13
  | .smem => 0
  | _ => 0

abbrev bufTy : (tb : Table) → Fin (tcTables nBuf tb) → BufTy
  | .hbm, ⟨0, _⟩ => ⟨S4096x25x64, .f32⟩
  | .hbm, ⟨1, _⟩ => ⟨S4096x25x64, .f32⟩
  | .hbm, ⟨2, _⟩ => ⟨S4096x55x64, .f32⟩
  | .hbm, ⟨3, _⟩ => ⟨S1000, .f32⟩
  | .hbm, ⟨4, _⟩ => ⟨S1000, .i32⟩
  | .hbm, ⟨5, _⟩ => ⟨S1000, .i32⟩
  | .hbm, ⟨6, _⟩ => ⟨S1000, .i32⟩
  | .hbm, ⟨7, _⟩ => ⟨S1000, .i32⟩
  | .hbm, ⟨8, _⟩ => ⟨S1000x1, .i32⟩
  | .hbm, ⟨9, _⟩ => ⟨S1x25, .i32⟩
  | .hbm, ⟨10, _⟩ => ⟨S1000x25, .i32⟩
  | .hbm, ⟨11, _⟩ => ⟨S1000x25, .i32⟩
  | .hbm, ⟨12, _⟩ => ⟨S1000x25, .i1⟩
  | .hbm, ⟨13, _⟩ => ⟨S1000x25, .f32⟩
  | .hbm, ⟨14, _⟩ => ⟨S1000x25, .bf16⟩
  | .hbm, ⟨15, _⟩ => ⟨S1000x1, .i32⟩
  | .hbm, ⟨16, _⟩ => ⟨S1x25, .i32⟩
  | .hbm, ⟨17, _⟩ => ⟨S1000x25, .i32⟩
  | .hbm, ⟨18, _⟩ => ⟨S1000x25, .i32⟩
  | .hbm, ⟨19, _⟩ => ⟨S1000x25, .i1⟩
  | .hbm, ⟨20, _⟩ => ⟨S1000x25, .f32⟩
  | .hbm, ⟨21, _⟩ => ⟨S1000x25, .bf16⟩
  | .hbm, ⟨22, _⟩ => ⟨S1000x1, .i32⟩
  | .hbm, ⟨23, _⟩ => ⟨S1x55, .i32⟩
  | .hbm, ⟨24, _⟩ => ⟨S1000x55, .i32⟩
  | .hbm, ⟨25, _⟩ => ⟨S1000x55, .i32⟩
  | .hbm, ⟨26, _⟩ => ⟨S1000x55, .i1⟩
  | .hbm, ⟨27, _⟩ => ⟨S1000x55, .f32⟩
  | .hbm, ⟨28, _⟩ => ⟨S1000x55, .bf16⟩
  | .hbm, ⟨29, _⟩ => ⟨S1000x1, .i32⟩
  | .hbm, ⟨30, _⟩ => ⟨S1x25, .i32⟩
  | .hbm, ⟨31, _⟩ => ⟨S1000x25, .i32⟩
  | .hbm, ⟨32, _⟩ => ⟨S1000x25, .i32⟩
  | .hbm, ⟨33, _⟩ => ⟨S1000x25, .i1⟩
  | .hbm, ⟨34, _⟩ => ⟨S1000x25, .f32⟩
  | .hbm, ⟨35, _⟩ => ⟨S25x1000, .f32⟩
  | .hbm, ⟨36, _⟩ => ⟨S25x1000, .bf16⟩
  | .hbm, ⟨37, _⟩ => ⟨S1000x1, .f32⟩
  | .hbm, ⟨38, _⟩ => ⟨S4096x25x64, .bf16⟩
  | .hbm, ⟨39, _⟩ => ⟨S25x4096x64, .bf16⟩
  | .hbm, ⟨40, _⟩ => ⟨S25x262144, .bf16⟩
  | .hbm, ⟨41, _⟩ => ⟨S4096x25x64, .bf16⟩
  | .hbm, ⟨42, _⟩ => ⟨S25x4096x64, .bf16⟩
  | .hbm, ⟨43, _⟩ => ⟨S25x262144, .bf16⟩
  | .hbm, ⟨44, _⟩ => ⟨S4096x55x64, .bf16⟩
  | .hbm, ⟨45, _⟩ => ⟨S55x4096x64, .bf16⟩
  | .hbm, ⟨46, _⟩ => ⟨S55x262144, .bf16⟩
  | .hbm, ⟨47, _⟩ => ⟨S25x262144, .f32⟩
  | .hbm, ⟨48, _⟩ => ⟨S25x4096x64, .f32⟩
  | .hbm, ⟨49, _⟩ => ⟨S4096x25x64, .f32⟩
  | .local _ .vmem, ⟨0, _⟩ => ⟨S25x2048, .bf16⟩
  | .local _ .vmem, ⟨1, _⟩ => ⟨S25x2048, .bf16⟩
  | .local _ .vmem, ⟨2, _⟩ => ⟨S25x2048, .bf16⟩
  | .local _ .vmem, ⟨3, _⟩ => ⟨S25x2048, .bf16⟩
  | .local _ .vmem, ⟨4, _⟩ => ⟨S55x2048, .bf16⟩
  | .local _ .vmem, ⟨5, _⟩ => ⟨S55x2048, .bf16⟩
  | .local _ .vmem, ⟨6, _⟩ => ⟨S1000x25, .bf16⟩
  | .local _ .vmem, ⟨7, _⟩ => ⟨S1000x25, .bf16⟩
  | .local _ .vmem, ⟨8, _⟩ => ⟨S1000x55, .bf16⟩
  | .local _ .vmem, ⟨9, _⟩ => ⟨S25x1000, .bf16⟩
  | .local _ .vmem, ⟨10, _⟩ => ⟨S1000x1, .f32⟩
  | .local _ .vmem, ⟨11, _⟩ => ⟨S25x2048, .f32⟩
  | .local _ .vmem, ⟨12, _⟩ => ⟨S25x2048, .f32⟩
  | _, _ => ⟨S4096x25x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v2 : Ref sig .tc := ⟨.hbm, 20, rfl⟩
abbrev main_v3 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_v4 : Ref sig .tc := ⟨.hbm, 27, rfl⟩
abbrev main_v5 : Ref sig .tc := ⟨.hbm, 28, rfl⟩
abbrev main_call3_v0 : Ref sig .tc := ⟨.hbm, 29, rfl⟩
abbrev main_call3_v1 : Ref sig .tc := ⟨.hbm, 30, rfl⟩
abbrev main_call3_v2 : Ref sig .tc := ⟨.hbm, 31, rfl⟩
abbrev main_call3_v3 : Ref sig .tc := ⟨.hbm, 32, rfl⟩
abbrev main_call3_v4 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S25x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S25x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S55x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1000x25 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1000x25 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1000x55 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S25x1000 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1000x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S25x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S1000_S1000x1_0 : S1000.BroadcastsInDim S1000x1 (![0] : Fin 1 → Fin S1000x1.rank)
  bcast_S1000x1_S1000x25_0_1 : S1000x1.BroadcastsInDim S1000x25 (![0, 1] : Fin 2 → Fin S1000x25.rank)
  bcast_S1x25_S1000x25_0_1 : S1x25.BroadcastsInDim S1000x25 (![0, 1] : Fin 2 → Fin S1000x25.rank)
  bitsLt_bf16_f32 : FTy.bits .bf16 < FTy.bits .f32
  bcast_S1000x1_S1000x55_0_1 : S1000x1.BroadcastsInDim S1000x55 (![0, 1] : Fin 2 → Fin S1000x55.rank)
  bcast_S1x55_S1000x55_0_1 : S1x55.BroadcastsInDim S1000x55 (![0, 1] : Fin 2 → Fin S1000x55.rank)
  transposes_S1000x25_S25x1000_1_0 : S1000x25.Transposes [1, 0] S25x1000
  transposes_S4096x25x64_S25x4096x64_1_0_2 : S4096x25x64.Transposes [1, 0, 2] S25x4096x64
  shapeCasts_S25x4096x64_S25x262144 : S25x4096x64.ShapeCasts S25x262144
  transposes_S4096x55x64_S55x4096x64_1_0_2 : S4096x55x64.Transposes [1, 0, 2] S55x4096x64
  shapeCasts_S55x4096x64_S55x262144 : S55x4096x64.ShapeCasts S55x262144
  inb_S25x2048_S25x2048_0_0 : ∀ a, (![0, 0] : Fin 2 → Nat) a + S25x2048.size a ≤ S25x2048.size a
  h_S25x2048 : 0 < S25x2048.numel
  shapeCasts_S25x2048_S25x2048 : S25x2048.ShapeCasts S25x2048
  inb_S55x2048_S55x2048_0_0 : ∀ a, (![0, 0] : Fin 2 → Nat) a + S55x2048.size a ≤ S55x2048.size a
  h_S55x2048 : 0 < S55x2048.numel
  shapeCasts_S55x2048_S55x2048 : S55x2048.ShapeCasts S55x2048
  inb_S1000x25_S1000x25_0_0 : ∀ a, (![0, 0] : Fin 2 → Nat) a + S1000x25.size a ≤ S1000x25.size a
  h_S1000x25 : 0 < S1000x25.numel
  shapeCasts_S1000x25_S1000x25 : S1000x25.ShapeCasts S1000x25
  inb_S1000x55_S1000x55_0_0 : ∀ a, (![0, 0] : Fin 2 → Nat) a + S1000x55.size a ≤ S1000x55.size a
  h_S1000x55 : 0 < S1000x55.numel
  shapeCasts_S1000x55_S1000x55 : S1000x55.ShapeCasts S1000x55
  inb_S25x1000_S25x1000_0_0 : ∀ a, (![0, 0] : Fin 2 → Nat) a + S25x1000.size a ≤ S25x1000.size a
  h_S25x1000 : 0 < S25x1000.numel
  shapeCasts_S25x1000_S25x1000 : S25x1000.ShapeCasts S25x1000
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x2048 : S1000x1.Broadcasts S1000x2048
  shapeCasts_S25x262144_S25x4096x64 : S25x262144.ShapeCasts S25x4096x64
  transposes_S25x4096x64_S4096x25x64_1_0_2 : S25x4096x64.Transposes [1, 0, 2] S4096x25x64
  dot_S1000x25_S25x2048_S1000x2048_1_0_0_1_n_n_wf : DotDims.WF S1000x25 S25x2048 S1000x2048 [1] [0] [0] [1] [] []
  dot_S1000x55_S55x2048_S1000x2048_1_0_0_1_n_n_wf : DotDims.WF S1000x55 S55x2048 S1000x2048 [1] [0] [0] [1] [] []
  dot_S25x1000_S1000x2048_S25x2048_1_0_0_1_n_n_wf : DotDims.WF S25x1000 S1000x2048 S25x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S25x2048.size a ≤ S25x262144.size a
  hwx0_0 : ∀ i : grid0.Coords, EltTy.bits .bf16 = 32 ∨ (Rect.block (s := S25x262144) S25x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S25x2048.size a ≤ S25x262144.size a
  hwx0_1 : ∀ i : grid0.Coords, EltTy.bits .bf16 = 32 ∨ (Rect.block (s := S25x262144) S25x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S55x2048.size a ≤ S55x262144.size a
  hwx0_2 : ∀ i : grid0.Coords, EltTy.bits .bf16 = 32 ∨ (Rect.block (s := S55x262144) S55x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1000x25.size a ≤ S1000x25.size a
  hwx0_3 : ∀ i : grid0.Coords, EltTy.bits .bf16 = 32 ∨ (Rect.block (s := S1000x25) S1000x25.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1000x25.size a ≤ S1000x25.size a
  hwx0_4 : ∀ i : grid0.Coords, EltTy.bits .bf16 = 32 ∨ (Rect.block (s := S1000x25) S1000x25.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1000x55.size a ≤ S1000x55.size a
  hwx0_5 : ∀ i : grid0.Coords, EltTy.bits .bf16 = 32 ∨ (Rect.block (s := S1000x55) S1000x55.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S25x1000.size a ≤ S25x1000.size a
  hwx0_6 : ∀ i : grid0.Coords, EltTy.bits .bf16 = 32 ∨ (Rect.block (s := S25x1000) S25x1000.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1000x1.size a ≤ S1000x1.size a
  hwx0_7 : ∀ i : grid0.Coords, EltTy.bits .f32 = 32 ∨ (Rect.block (s := S1000x1) S1000x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S25x2048.size a ≤ S25x262144.size a
  hwx0_8 : ∀ i : grid0.Coords, EltTy.bits .f32 = 32 ∨ (Rect.block (s := S25x262144) S25x2048.size (cc0_transform_8 i) (hinb0_8 i)).WholeWords (EltTy.packing .f32)

variable [Facts₀]

def dot_S1000x25_S25x2048_S1000x2048_1_0_0_1_n_n : DotDims S1000x25 S25x2048 S1000x2048 where
  lhsContracting := [1]
  rhsContracting := [0]
  lhsNonContracting := [0]
  rhsNonContracting := [1]
  lhsBatch := []
  rhsBatch := []
  wf := dot_S1000x25_S25x2048_S1000x2048_1_0_0_1_n_n_wf
def dot_S1000x55_S55x2048_S1000x2048_1_0_0_1_n_n : DotDims S1000x55 S55x2048 S1000x2048 where
  lhsContracting := [1]
  rhsContracting := [0]
  lhsNonContracting := [0]
  rhsNonContracting := [1]
  lhsBatch := []
  rhsBatch := []
  wf := dot_S1000x55_S55x2048_S1000x2048_1_0_0_1_n_n_wf
def dot_S25x1000_S1000x2048_S25x2048_1_0_0_1_n_n : DotDims S25x1000 S1000x2048 S25x2048 where
  lhsContracting := [1]
  rhsContracting := [0]
  lhsNonContracting := [0]
  rhsNonContracting := [1]
  lhsBatch := []
  rhsBatch := []
  wf := dot_S25x1000_S1000x2048_S25x2048_1_0_0_1_n_n_wf

abbrev win0_0 : Pipeline.Window sig grid0 :=
  Pipeline.Window.ofSpec (Memref.whole main_v12) S25x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S25x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S55x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1000x25.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1000x25.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1000x55.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S25x1000.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1000x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S25x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x25x64 : Shape := ⟨3, ![4096, 25, 64]⟩
abbrev S4096x55x64 : Shape := ⟨3, ![4096, 55, 64]⟩
abbrev S1000 : Shape := ⟨1, ![1000]⟩
abbrev S_ : Shape := ⟨0, ![]⟩
abbrev S1000x1 : Shape := ⟨2, ![1000, 1]⟩
abbrev S4096x1000x64 : Shape := ⟨3, ![4096, 1000, 64]⟩
abbrev S1x1000x1 : Shape := ⟨3, ![1, 1000, 1]⟩

abbrev nBuf : Space → Nat
  | .hbm => 51
  | .vmem => 0
  | .smem => 0
  | _ => 0

abbrev bufTy : (tb : Table) → Fin (tcTables nBuf tb) → BufTy
  | .hbm, ⟨0, _⟩ => ⟨S4096x25x64, .f32⟩
  | .hbm, ⟨1, _⟩ => ⟨S4096x25x64, .f32⟩
  | .hbm, ⟨2, _⟩ => ⟨S4096x55x64, .f32⟩
  | .hbm, ⟨3, _⟩ => ⟨S1000, .f32⟩
  | .hbm, ⟨4, _⟩ => ⟨S1000, .i32⟩
  | .hbm, ⟨5, _⟩ => ⟨S1000, .i32⟩
  | .hbm, ⟨6, _⟩ => ⟨S1000, .i32⟩
  | .hbm, ⟨7, _⟩ => ⟨S1000, .i32⟩
  | .hbm, ⟨8, _⟩ => ⟨S_, .i32⟩
  | .hbm, ⟨9, _⟩ => ⟨S1000, .i32⟩
  | .hbm, ⟨10, _⟩ => ⟨S1000, .i1⟩
  | .hbm, ⟨11, _⟩ => ⟨S_, .i32⟩
  | .hbm, ⟨12, _⟩ => ⟨S1000, .i32⟩
  | .hbm, ⟨13, _⟩ => ⟨S1000, .i32⟩
  | .hbm, ⟨14, _⟩ => ⟨S1000, .i32⟩
  | .hbm, ⟨15, _⟩ => ⟨S1000x1, .i32⟩
  | .hbm, ⟨16, _⟩ => ⟨S4096x1000x64, .f32⟩
  | .hbm, ⟨17, _⟩ => ⟨S_, .i32⟩
  | .hbm, ⟨18, _⟩ => ⟨S1000, .i32⟩
  | .hbm, ⟨19, _⟩ => ⟨S1000, .i1⟩
  | .hbm, ⟨20, _⟩ => ⟨S_, .i32⟩
  | .hbm, ⟨21, _⟩ => ⟨S1000, .i32⟩
  | .hbm, ⟨22, _⟩ => ⟨S1000, .i32⟩
  | .hbm, ⟨23, _⟩ => ⟨S1000, .i32⟩
  | .hbm, ⟨24, _⟩ => ⟨S1000x1, .i32⟩
  | .hbm, ⟨25, _⟩ => ⟨S4096x1000x64, .f32⟩
  | .hbm, ⟨26, _⟩ => ⟨S4096x1000x64, .f32⟩
  | .hbm, ⟨27, _⟩ => ⟨S1x1000x1, .f32⟩
  | .hbm, ⟨28, _⟩ => ⟨S4096x1000x64, .f32⟩
  | .hbm, ⟨29, _⟩ => ⟨S4096x1000x64, .f32⟩
  | .hbm, ⟨30, _⟩ => ⟨S_, .i32⟩
  | .hbm, ⟨31, _⟩ => ⟨S1000, .i32⟩
  | .hbm, ⟨32, _⟩ => ⟨S1000, .i1⟩
  | .hbm, ⟨33, _⟩ => ⟨S_, .i32⟩
  | .hbm, ⟨34, _⟩ => ⟨S1000, .i32⟩
  | .hbm, ⟨35, _⟩ => ⟨S1000, .i32⟩
  | .hbm, ⟨36, _⟩ => ⟨S1000, .i32⟩
  | .hbm, ⟨37, _⟩ => ⟨S1000x1, .i32⟩
  | .hbm, ⟨38, _⟩ => ⟨S4096x1000x64, .f32⟩
  | .hbm, ⟨39, _⟩ => ⟨S4096x1000x64, .f32⟩
  | .hbm, ⟨40, _⟩ => ⟨S_, .f32⟩
  | .hbm, ⟨41, _⟩ => ⟨S4096x25x64, .f32⟩
  | .hbm, ⟨42, _⟩ => ⟨S_, .i32⟩
  | .hbm, ⟨43, _⟩ => ⟨S1000, .i32⟩
  | .hbm, ⟨44, _⟩ => ⟨S1000, .i1⟩
  | .hbm, ⟨45, _⟩ => ⟨S_, .i32⟩
  | .hbm, ⟨46, _⟩ => ⟨S1000, .i32⟩
  | .hbm, ⟨47, _⟩ => ⟨S1000, .i32⟩
  | .hbm, ⟨48, _⟩ => ⟨S1000, .i32⟩
  | .hbm, ⟨49, _⟩ => ⟨S1000x1, .i32⟩
  | .hbm, ⟨50, _⟩ => ⟨S4096x25x64, .f32⟩
  | _, _ => ⟨S4096x25x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]

class Facts₀ : Prop where
  bcast_S_S1000 : S_.BroadcastsInDim S1000 (![] : Fin 0 → Fin S1000.rank)
  bcast_S1000_S1000x1_0 : S1000.BroadcastsInDim S1000x1 (![0] : Fin 1 → Fin S1000x1.rank)
  bcast_S1000_S1x1000x1_1 : S1000.BroadcastsInDim S1x1000x1 (![1] : Fin 1 → Fin S1x1000x1.rank)
  bcast_S1x1000x1_S4096x1000x64_0_1_2 : S1x1000x1.BroadcastsInDim S4096x1000x64 (![0, 1, 2] : Fin 3 → Fin S4096x1000x64.rank)
  bcast_S_S4096x25x64 : S_.BroadcastsInDim S4096x25x64 (![] : Fin 0 → Fin S4096x25x64.rank)
  gather_S4096x25x64_S1000x1_S4096x1000x64_02_1_n_n_1_1_4096164_wf : GatherDims.WF S4096x25x64 S1000x1 S4096x1000x64 [0, 2] [1] [] [1] [] 1 ![4096, 1, 64]
  gather_S4096x55x64_S1000x1_S4096x1000x64_02_1_n_n_1_1_4096164_wf : GatherDims.WF S4096x55x64 S1000x1 S4096x1000x64 [0, 2] [1] [] [1] [] 1 ![4096, 1, 64]
  scatter_S4096x25x64_S1000x1_S4096x1000x64_02_1_1_1_wf : ScatterDims.WF S4096x25x64 S1000x1 S4096x1000x64 [0, 2] [1] [1] 1

variable [Facts₀]

def gather_S4096x25x64_S1000x1_S4096x1000x64_02_1_n_n_1_1_4096164 : GatherDims S4096x25x64 S1000x1 S4096x1000x64 where
  offsetDims := [0, 2]
  collapsedSliceDims := [1]
  operandBatchingDims := []
  startIndicesBatchingDims := []
  startIndexMap := [1]
  indexVectorDim := 1
  sliceSizes := ![4096, 1, 64]
  wf := gather_S4096x25x64_S1000x1_S4096x1000x64_02_1_n_n_1_1_4096164_wf
def gather_S4096x55x64_S1000x1_S4096x1000x64_02_1_n_n_1_1_4096164 : GatherDims S4096x55x64 S1000x1 S4096x1000x64 where
  offsetDims := [0, 2]
  collapsedSliceDims := [1]
  operandBatchingDims := []
  startIndicesBatchingDims := []
  startIndexMap := [1]
  indexVectorDim := 1
  sliceSizes := ![4096, 1, 64]
  wf := gather_S4096x55x64_S1000x1_S4096x1000x64_02_1_n_n_1_1_4096164_wf
def scatter_S4096x25x64_S1000x1_S4096x1000x64_02_1_1_1 : ScatterDims S4096x25x64 S1000x1 S4096x1000x64 where
  updateWindowDims := [0, 2]
  insertedWindowDims := [1]
  scatterDimsToOperandDims := [1]
  indexVectorDim := 1
  wf := scatter_S4096x25x64_S1000x1_S4096x1000x64_02_1_1_1_wf

class Facts : Prop extends Facts₀ where

variable [Facts]
-- ==== Proof.Spec.lean ====
/-
  A weighted tensor product followed by a segment sum, as one function of the argument arrays on the extended reals.

  The arguments are two arrays x1, x2 of shape [4096, 25, 64], a weight array of shape [4096, 55, 64], a vector cg of 1000
  coefficients and four vectors of 1000 integer words: mo (the output row of term n), m1 and m2 (the rows of x1 and x2
  term n reads) and li (the row of the weights it reads). Entry (b, k, c) of the result is the sum, over the terms n whose
  output row is k, of  x1(b, m1 n, c) · x2(b, m2 n, c) · cg n · weight(b, li n, c).

  A row index is read off its word signed and clamped into the axis ("rowOf"), as a gather reads a start index; for a
  word that is the word of a row of the axis this is that row. The same entry arises from four matrix products with
  0/1 matrices: "hot w j" is 1 when the word w is the word of j and 0 otherwise; a sum of products of a one-hot row
  with a column picks the column's entry, and a sum of products of a 0/1 row with terms is the sum of the selected terms
  (outT; the law that joins the two forms is proved in a module of its own).
-/
import Idealize.ShloMosaic.PureOps.Ideal
import Idealize.ShloMosaic.Lib.ValueIdx

noncomputable section

open scoped BigOperators

namespace Cert.WTP

open Idealize.ShloMosaic Idealize.ShloMosaic.ValueIdx

/-- A 32-bit start index read signed and clamped into [0, K - 1]. -/
def rowOf (K : Nat) (hK : 0 < K) (w : BitVec 32) : Fin K := ⟨min w.toInt.toNat (K - 1), by omega⟩

/-- The entry of a one-hot row: the bit "word w is the word of j", read unsigned as a number. -/
def hot (w : BitVec 32) (j : Nat) : EReal := (((IntOp.cmpi .eq w (BitVec.ofNat 32 j)).toNat : ℝ) : EReal)

/-- Term n of the product at batch b and channel c. -/
def term (x1 x2 : (⟨3, ![4096, 25, 64]⟩ : Shape).Idx → EReal) (wt : (⟨3, ![4096, 55, 64]⟩ : Shape).Idx → EReal)
    (cg : (⟨1, ![1000]⟩ : Shape).Idx → EReal) (m1 m2 li : (⟨1, ![1000]⟩ : Shape).Idx → BitVec 32)
    (b : Fin 4096) (c : Fin 64) (n : Fin 1000) : EReal :=
  x1 (ix3 b (rowOf 25 (by decide) (m1 (ix1 n))) c) * x2 (ix3 b (rowOf 25 (by decide) (m2 (ix1 n))) c) * cg (ix1 n)
    * wt (ix3 b (rowOf 55 (by decide) (li (ix1 n))) c)

/-- Entry (b, k, c) of the result: the sum of the terms whose output row, read signed, is k. -/
def Gat (x1 x2 : (⟨3, ![4096, 25, 64]⟩ : Shape).Idx → EReal) (wt : (⟨3, ![4096, 55, 64]⟩ : Shape).Idx → EReal)
    (cg : (⟨1, ![1000]⟩ : Shape).Idx → EReal) (mo m1 m2 li : (⟨1, ![1000]⟩ : Shape).Idx → BitVec 32)
    (b : Fin 4096) (k : Fin 25) (c : Fin 64) : EReal :=
  ∑ n ∈ Finset.univ.filter (fun n : Fin 1000 => (mo (ix1 n)).toInt = (k.val : Int)), term x1 x2 wt cg m1 m2 li b c n

/-- The index words are in range: an output row is not negative, and every gathered row is a row of its axis. -/
structure Ranges (mo m1 m2 li : (⟨1, ![1000]⟩ : Shape).Idx → BitVec 32) : Prop where
  mo_nonneg : ∀ n : Fin 1000, 0 ≤ (mo (ix1 n)).toInt
  m1_lt : ∀ n : Fin 1000, ∃ k : Fin 25, m1 (ix1 n) = BitVec.ofNat 32 k.val
  m2_lt : ∀ n : Fin 1000, ∃ k : Fin 25, m2 (ix1 n) = BitVec.ofNat 32 k.val
  li_lt : ∀ n : Fin 1000, ∃ k : Fin 55, li (ix1 n) = BitVec.ofNat 32 k.val

/-- The same entry as four matrix products: entry (k, col) of O4 · ((O1 · A1) ⊙ (O2 · A2) ⊙ CG ⊙ (O3 · A3)), the
    products over the row axes of A1, A2, A3 and over the 1000 terms, ⊙ entry by entry, CG a column laid over the
    columns. -/
def outT {C : Nat} (A1 A2 : (⟨2, ![25, C]⟩ : Shape).Idx → EReal) (A3 : (⟨2, ![55, C]⟩ : Shape).Idx → EReal)
    (O1 O2 : (⟨2, ![1000, 25]⟩ : Shape).Idx → EReal) (O3 : (⟨2, ![1000, 55]⟩ : Shape).Idx → EReal)
    (O4 : (⟨2, ![25, 1000]⟩ : Shape).Idx → EReal) (CG : (⟨2, ![1000, 1]⟩ : Shape).Idx → EReal)
    (k : Fin 25) (col : Fin C) : EReal :=
  ∑ n : Fin 1000, O4 (ix2 k n) *
    ((∑ j : Fin 25, O1 (ix2 n j) * A1 (ix2 j col)) * (∑ j : Fin 25, O2 (ix2 n j) * A2 (ix2 j col)) * CG (ix2 n (0 : Fin 1))
      * (∑ j : Fin 55, O3 (ix2 n j) * A3 (ix2 j col)))

end Cert.WTP

end
-- ==== Proof.KHost.lean ====
/-
  What the kernel's region finds in the eight arrays it reads, entry by entry, in terms of the arguments.

  Three arrays are the operands x1, x2 and the weights re-laid: the float format changed (the identity on the extended
  reals), the first two axes swapped, and batch and channel merged into one axis of 4096 · 64 columns, so that entry
  (j, b · 64 + ch) is the argument's entry (b, j, ch). Four are 0/1 matrices: an index vector laid along the rows is
  compared, entry by entry, with the column numbers 0 … K - 1 laid along the columns, and the comparison bit is read as a
  number; the fourth of them is swapped so that its rows are the output rows. The last is the coefficient vector as a
  column.
-/
import proofs.«429262_j13254269075604_2_alg».proof.Proof.Gen.KernelIdeal.Frame
import proofs.«429262_j13254269075604_2_alg».proof.Proof.Spec
import Idealize.ShloMosaic.Lib.StableHlo.Run
import Idealize.ShloMosaic.Lib.Pipeline.Value
import Idealize.ShloMosaic.Lib.ValueIdx

noncomputable section

namespace Cert.WTP

open Idealize.ShloMosaic Idealize.ShloMosaic.TcCoe Idealize.SL.Sem Idealize.ShloMosaic.StableHlo Idealize.ShloMosaic.ValueIdx
open Cert.KernelIdeal Cert.KernelIdeal.Gen

/-! ## A column of words over the rows, a row of column numbers over the columns -/

section Reads
variable {α : Type}

/-- A vector laid as a column and then over K columns reads, at (n, j), the vector's entry n. -/
theorem col_read25 (x : S1000.Idx → α) (n : Fin 1000) (j : Fin 25) :
    broadcastInDim S1000x25 ![0, 1] bcast_S1000x1_S1000x25_0_1 (broadcastInDim S1000x1 ![0] bcast_S1000_S1000x1_0 x) (ix2 n j) = x (ix1 n) := by
  refine (broadcastInDim_apply ![0, 1] bcast_S1000x1_S1000x25_0_1 _ (ix2 n j) (ix2 n (0 : Fin 1)) ?_).trans ?_
  · intro a
    match a with
    | ⟨0, _⟩ => show n.val = if (1000 : Nat) = 1 then 0 else n.val; rw [if_neg (by decide)]
    | ⟨1, _⟩ => show (0 : Nat) = if (1 : Nat) = 1 then 0 else j.val; rw [if_pos rfl]
  · refine broadcastInDim_apply ![0] bcast_S1000_S1000x1_0 x (ix2 n (0 : Fin 1)) (ix1 n) ?_
    intro a
    match a with
    | ⟨0, _⟩ => show n.val = if (1000 : Nat) = 1 then 0 else n.val; rw [if_neg (by decide)]

theorem col_read55 (x : S1000.Idx → α) (n : Fin 1000) (j : Fin 55) :
    broadcastInDim S1000x55 ![0, 1] bcast_S1000x1_S1000x55_0_1 (broadcastInDim S1000x1 ![0] bcast_S1000_S1000x1_0 x) (ix2 n j) = x (ix1 n) := by
  refine (broadcastInDim_apply ![0, 1] bcast_S1000x1_S1000x55_0_1 _ (ix2 n j) (ix2 n (0 : Fin 1)) ?_).trans ?_
  · intro a
    match a with
    | ⟨0, _⟩ => show n.val = if (1000 : Nat) = 1 then 0 else n.val; rw [if_neg (by decide)]
    | ⟨1, _⟩ => show (0 : Nat) = if (1 : Nat) = 1 then 0 else j.val; rw [if_pos rfl]
  · refine broadcastInDim_apply ![0] bcast_S1000_S1000x1_0 x (ix2 n (0 : Fin 1)) (ix1 n) ?_
    intro a
    match a with
    | ⟨0, _⟩ => show n.val = if (1000 : Nat) = 1 then 0 else n.val; rw [if_neg (by decide)]

/-- The column numbers laid over the rows read, at (n, j), the word of j. -/
theorem row_read25 (u : Unit) (n : Fin 1000) (j : Fin 25) :
    broadcastInDim S1000x25 ![0, 1] bcast_S1x25_S1000x25_0_1 (iotaInDim S1x25 32 1) (ix2 n j) = BitVec.ofNat 32 j.val := by
  refine (broadcastInDim_apply ![0, 1] bcast_S1x25_S1000x25_0_1 _ (ix2 n j) (ix2 (0 : Fin 1) j) ?_).trans rfl
  intro a
  match a with
  | ⟨0, _⟩ => show (0 : Nat) = if (1 : Nat) = 1 then 0 else n.val; rw [if_pos rfl]
  | ⟨1, _⟩ => show j.val = if (25 : Nat) = 1 then 0 else j.val; rw [if_neg (by decide)]

theorem row_read55 (u : Unit) (n : Fin 1000) (j : Fin 55) :
    broadcastInDim S1000x55 ![0, 1] bcast_S1x55_S1000x55_0_1 (iotaInDim S1x55 32 1) (ix2 n j) = BitVec.ofNat 32 j.val := by
  refine (broadcastInDim_apply ![0, 1] bcast_S1x55_S1000x55_0_1 _ (ix2 n j) (ix2 (0 : Fin 1) j) ?_).trans rfl
  intro a
  match a with
  | ⟨0, _⟩ => show (0 : Nat) = if (1 : Nat) = 1 then 0 else n.val; rw [if_pos rfl]
  | ⟨1, _⟩ => show j.val = if (55 : Nat) = 1 then 0 else j.val; rw [if_neg (by decide)]

end Reads

variable (m : (ℓ : Loc nD τ sig) → Buf (Elt Ideal) ℓ)

/-! ## The re-laid operands -/

theorem V_v12 (c : Dev nD) : V m c main_v12 = (shapeCast S25x262144 (transpose S25x4096x64 [1, 0, 2] (truncf (F := Ideal) .bf16 (m ((c : Thread nD τ).loc main_arg0)) bitsLt_bf16_f32) transposes_S4096x25x64_S25x4096x64_1_0_2) shapeCasts_S25x4096x64_S25x262144 : S25x262144.Idx → EReal) := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results
  rfl

/-- Entry (j, col) of this re-laid operand is the argument at batch col / 64, row j, channel col % 64. -/
theorem V_v12_apply (c : Dev nD) (j : Fin 25) (b : Fin 4096) (ch : Fin 64) :
    V m c main_v12 (ix2 j (⟨b.val * 64 + ch.val, by have := b.isLt; have := ch.isLt; omega⟩ : Fin 262144))
      = m ((c : Thread nD τ).loc main_arg0) (ix3 b j ch) := by
  rw [V_v12]
  refine (shapeCast_apply _ shapeCasts_S25x4096x64_S25x262144 (ix2 j (⟨b.val * 64 + ch.val, by have := b.isLt; have := ch.isLt; omega⟩ : Fin 262144)) (ix3 j b ch) ?_).trans ?_
  · rw [Shape.rowMajor_val_three, Shape.rowMajor_val_two]
    show (j.val * 4096 + b.val) * 64 + ch.val = j.val * 262144 + (b.val * 64 + ch.val)
    omega
  · refine (transpose_apply [1, 0, 2] _ transposes_S4096x25x64_S25x4096x64_1_0_2 (ix3 j b ch) (ix3 b j ch) ?_).trans rfl
    intro a
    match a with
    | ⟨0, _⟩ => rfl
    | ⟨1, _⟩ => rfl
    | ⟨2, _⟩ => rfl

theorem V_v15 (c : Dev nD) : V m c main_v15 = (shapeCast S25x262144 (transpose S25x4096x64 [1, 0, 2] (truncf (F := Ideal) .bf16 (m ((c : Thread nD τ).loc main_arg1)) bitsLt_bf16_f32) transposes_S4096x25x64_S25x4096x64_1_0_2) shapeCasts_S25x4096x64_S25x262144 : S25x262144.Idx → EReal) := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results
  rfl

/-- Entry (j, col) of this re-laid operand is the argument at batch col / 64, row j, channel col % 64. -/
theorem V_v15_apply (c : Dev nD) (j : Fin 25) (b : Fin 4096) (ch : Fin 64) :
    V m c main_v15 (ix2 j (⟨b.val * 64 + ch.val, by have := b.isLt; have := ch.isLt; omega⟩ : Fin 262144))
      = m ((c : Thread nD τ).loc main_arg1) (ix3 b j ch) := by
  rw [V_v15]
  refine (shapeCast_apply _ shapeCasts_S25x4096x64_S25x262144 (ix2 j (⟨b.val * 64 + ch.val, by have := b.isLt; have := ch.isLt; omega⟩ : Fin 262144)) (ix3 j b ch) ?_).trans ?_
  · rw [Shape.rowMajor_val_three, Shape.rowMajor_val_two]
    show (j.val * 4096 + b.val) * 64 + ch.val = j.val * 262144 + (b.val * 64 + ch.val)
    omega
  · refine (transpose_apply [1, 0, 2] _ transposes_S4096x25x64_S25x4096x64_1_0_2 (ix3 j b ch) (ix3 b j ch) ?_).trans rfl
    intro a
    match a with
    | ⟨0, _⟩ => rfl
    | ⟨1, _⟩ => rfl
    | ⟨2, _⟩ => rfl

theorem V_v18 (c : Dev nD) : V m c main_v18 = (shapeCast S55x262144 (transpose S55x4096x64 [1, 0, 2] (truncf (F := Ideal) .bf16 (m ((c : Thread nD τ).loc main_arg2)) bitsLt_bf16_f32) transposes_S4096x55x64_S55x4096x64_1_0_2) shapeCasts_S55x4096x64_S55x262144 : S55x262144.Idx → EReal) := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results
  rfl

/-- Entry (j, col) of this re-laid operand is the argument at batch col / 64, row j, channel col % 64. -/
theorem V_v18_apply (c : Dev nD) (j : Fin 55) (b : Fin 4096) (ch : Fin 64) :
    V m c main_v18 (ix2 j (⟨b.val * 64 + ch.val, by have := b.isLt; have := ch.isLt; omega⟩ : Fin 262144))
      = m ((c : Thread nD τ).loc main_arg2) (ix3 b j ch) := by
  rw [V_v18]
  refine (shapeCast_apply _ shapeCasts_S55x4096x64_S55x262144 (ix2 j (⟨b.val * 64 + ch.val, by have := b.isLt; have := ch.isLt; omega⟩ : Fin 262144)) (ix3 j b ch) ?_).trans ?_
  · rw [Shape.rowMajor_val_three, Shape.rowMajor_val_two]
    show (j.val * 4096 + b.val) * 64 + ch.val = j.val * 262144 + (b.val * 64 + ch.val)
    omega
  · refine (transpose_apply [1, 0, 2] _ transposes_S4096x55x64_S55x4096x64_1_0_2 (ix3 j b ch) (ix3 b j ch) ?_).trans rfl
    intro a
    match a with
    | ⟨0, _⟩ => rfl
    | ⟨1, _⟩ => rfl
    | ⟨2, _⟩ => rfl

/-! ## The 0/1 matrices -/

theorem V_v1 (c : Dev nD) : V m c main_v1 = (truncf (F := Ideal) .bf16 (uitofp (F := Ideal) .f32 (cmpi .eq (broadcastInDim S1000x25 ![0, 1] bcast_S1000x1_S1000x25_0_1 (broadcastInDim S1000x1 ![0] bcast_S1000_S1000x1_0 (m ((c : Thread nD τ).loc main_arg5)))) (broadcastInDim S1000x25 ![0, 1] bcast_S1x25_S1000x25_0_1 (iotaInDim S1x25 32 1)))) bitsLt_bf16_f32 : S1000x25.Idx → EReal) := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results
  rfl

/-- Entry (n, j) of this 0/1 matrix: 1 when index word n is the word of j, else 0. -/
theorem V_v1_apply (c : Dev nD) (n : Fin 1000) (j : Fin 25) :
    V m c main_v1 (ix2 n j) = hot (m ((c : Thread nD τ).loc main_arg5) (ix1 n)) j.val := by
  rw [V_v1]
  show (((IntOp.cmpi .eq
      (broadcastInDim S1000x25 ![0, 1] bcast_S1000x1_S1000x25_0_1 (broadcastInDim S1000x1 ![0] bcast_S1000_S1000x1_0 (m ((c : Thread nD τ).loc main_arg5))) (ix2 n j))
      (broadcastInDim S1000x25 ![0, 1] bcast_S1x25_S1000x25_0_1 (iotaInDim S1x25 32 1) (ix2 n j))).toNat : ℝ) : EReal) = _
  rw [col_read25 _ n j, row_read25 () n j]
  rfl

theorem V_v3 (c : Dev nD) : V m c main_v3 = (truncf (F := Ideal) .bf16 (uitofp (F := Ideal) .f32 (cmpi .eq (broadcastInDim S1000x25 ![0, 1] bcast_S1000x1_S1000x25_0_1 (broadcastInDim S1000x1 ![0] bcast_S1000_S1000x1_0 (m ((c : Thread nD τ).loc main_arg6)))) (broadcastInDim S1000x25 ![0, 1] bcast_S1x25_S1000x25_0_1 (iotaInDim S1x25 32 1)))) bitsLt_bf16_f32 : S1000x25.Idx → EReal) := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results
  rfl

/-- Entry (n, j) of this 0/1 matrix: 1 when index word n is the word of j, else 0. -/
theorem V_v3_apply (c : Dev nD) (n : Fin 1000) (j : Fin 25) :
    V m c main_v3 (ix2 n j) = hot (m ((c : Thread nD τ).loc main_arg6) (ix1 n)) j.val := by
  rw [V_v3]
  show (((IntOp.cmpi .eq
      (broadcastInDim S1000x25 ![0, 1] bcast_S1000x1_S1000x25_0_1 (broadcastInDim S1000x1 ![0] bcast_S1000_S1000x1_0 (m ((c : Thread nD τ).loc main_arg6))) (ix2 n j))
      (broadcastInDim S1000x25 ![0, 1] bcast_S1x25_S1000x25_0_1 (iotaInDim S1x25 32 1) (ix2 n j))).toNat : ℝ) : EReal) = _
  rw [col_read25 _ n j, row_read25 () n j]
  rfl

theorem V_v5 (c : Dev nD) : V m c main_v5 = (truncf (F := Ideal) .bf16 (uitofp (F := Ideal) .f32 (cmpi .eq (broadcastInDim S1000x55 ![0, 1] bcast_S1000x1_S1000x55_0_1 (broadcastInDim S1000x1 ![0] bcast_S1000_S1000x1_0 (m ((c : Thread nD τ).loc main_arg7)))) (broadcastInDim S1000x55 ![0, 1] bcast_S1x55_S1000x55_0_1 (iotaInDim S1x55 32 1)))) bitsLt_bf16_f32 : S1000x55.Idx → EReal) := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results
  rfl

/-- Entry (n, j) of this 0/1 matrix: 1 when index word n is the word of j, else 0. -/
theorem V_v5_apply (c : Dev nD) (n : Fin 1000) (j : Fin 55) :
    V m c main_v5 (ix2 n j) = hot (m ((c : Thread nD τ).loc main_arg7) (ix1 n)) j.val := by
  rw [V_v5]
  show (((IntOp.cmpi .eq
      (broadcastInDim S1000x55 ![0, 1] bcast_S1000x1_S1000x55_0_1 (broadcastInDim S1000x1 ![0] bcast_S1000_S1000x1_0 (m ((c : Thread nD τ).loc main_arg7))) (ix2 n j))
      (broadcastInDim S1000x55 ![0, 1] bcast_S1x55_S1000x55_0_1 (iotaInDim S1x55 32 1) (ix2 n j))).toNat : ℝ) : EReal) = _
  rw [col_read55 _ n j, row_read55 () n j]
  rfl

theorem V_v8 (c : Dev nD) : V m c main_v8 = (truncf (F := Ideal) .bf16 (transpose S25x1000 [1, 0] (uitofp (F := Ideal) .f32 (cmpi .eq (broadcastInDim S1000x25 ![0, 1] bcast_S1000x1_S1000x25_0_1 (broadcastInDim S1000x1 ![0] bcast_S1000_S1000x1_0 (m ((c : Thread nD τ).loc main_arg4)))) (broadcastInDim S1000x25 ![0, 1] bcast_S1x25_S1000x25_0_1 (iotaInDim S1x25 32 1)))) transposes_S1000x25_S25x1000_1_0) bitsLt_bf16_f32 : S25x1000.Idx → EReal) := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results
  rfl

/-- Entry (k, n) of the swapped 0/1 matrix: 1 when output-row word n is the word of k, else 0. -/
theorem V_v8_apply (c : Dev nD) (k : Fin 25) (n : Fin 1000) :
    V m c main_v8 (ix2 k n) = hot (m ((c : Thread nD τ).loc main_arg4) (ix1 n)) k.val := by
  rw [V_v8]
  have e : ∀ a : FVec Ideal S25x1000 .f32,
      (truncf (F := Ideal) .bf16 a bitsLt_bf16_f32 : S25x1000.Idx → EReal) (ix2 k n) = a (ix2 k n) := fun _ => rfl
  refine (e _).trans ?_
  refine (transpose_apply [1, 0] _ transposes_S1000x25_S25x1000_1_0 (ix2 k n) (ix2 n k) ?_).trans ?_
  · intro a
    match a with
    | ⟨0, _⟩ => rfl
    | ⟨1, _⟩ => rfl
  · show (((IntOp.cmpi .eq
        (broadcastInDim S1000x25 ![0, 1] bcast_S1000x1_S1000x25_0_1 (broadcastInDim S1000x1 ![0] bcast_S1000_S1000x1_0 (m ((c : Thread nD τ).loc main_arg4))) (ix2 n k))
        (broadcastInDim S1000x25 ![0, 1] bcast_S1x25_S1000x25_0_1 (iotaInDim S1x25 32 1) (ix2 n k))).toNat : ℝ) : EReal) = _
    rw [col_read25 _ n k, row_read25 () n k]
    rfl

/-! ## The coefficient column -/

theorem V_v9 (c : Dev nD) : V m c main_v9 = (broadcastInDim S1000x1 ![0] bcast_S1000_S1000x1_0 (m ((c : Thread nD τ).loc main_arg3)) : S1000x1.Idx → EReal) := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results

/-- Entry (n, 0) of the coefficient column is coefficient n. -/
theorem V_v9_apply (c : Dev nD) (n : Fin 1000) :
    V m c main_v9 (ix2 n (0 : Fin 1)) = m ((c : Thread nD τ).loc main_arg3) (ix1 n) := by
  rw [V_v9]
  refine broadcastInDim_apply ![0] bcast_S1000_S1000x1_0 _ (ix2 n (0 : Fin 1)) (ix1 n) ?_
  intro a
  match a with
  | ⟨0, _⟩ => show n.val = if (1000 : Nat) = 1 then 0 else n.val; rw [if_neg (by decide)]

end Cert.WTP

end
-- ==== Proof.KBody.lean ====
/-
  The kernel body's one stored value, read at an entry: four matrix products into zero accumulators, joined entry by
  entry.

  With the blocks A1, A2 [25, 2048] and A3 [55, 2048] of the three transposed operands, the 0/1 matrices O1, O2 [1000, 25],
  O3 [1000, 55], O4 [25, 1000] and the column CG [1000, 1], entry (k, j) of the stored block is
    sum over n of O4(k, n) · ((O1 · A1)(n, j) · (O2 · A2)(n, j) · CG(n) · (O3 · A3)(n, j));
  a change of float format is the identity on the extended reals, and a product into a zero accumulator is the plain sum
  of products over the contracted axis.
-/
import proofs.«429262_j13254269075604_2_alg».proof.Proof.Gen.KernelIdeal.Skeleton
import proofs.«429262_j13254269075604_2_alg».proof.Proof.Spec
import Idealize.ShloMosaic.Lib.ValueIdx
import Idealize.ShloMosaic.Lib.Pipeline.Value
import Idealize.ShloMosaic.PureOps.Ideal.Laws

noncomputable section

open scoped BigOperators

namespace Cert.WTP

open Idealize.ShloMosaic Idealize.ShloMosaic.ValueIdx Cert.KernelIdeal

/-- A [1000, 25] by [25, 2048] product into the zero accumulator, read at (p, q): the sum over the 25 contracted positions of the products of the entries. -/
theorem matmul_1000x25_apply (A : FVec Ideal S1000x25 .bf16) (B : FVec Ideal S25x2048 .bf16) (p : Fin 1000) (q : Fin 2048) :
    matmul dot_S1000x25_S25x2048_S1000x2048_1_0_0_1_n_n none A B (constant S1000x2048 .f32 0x00000000#32) (ix2 p q)
      = ∑ c : Fin 25, A (ix2 p c) * B (ix2 c q) := by
  show FloatOps.matmul _ none A B (constant S1000x2048 .f32 0x00000000#32) (ix2 p q) = _
  -- the sum over the one-axis contraction index is the sum over its coordinate
  rw [Ideal.matmul_constant_zero_apply,
    ← Equiv.sum_comp (contrEquiv1 dot_S1000x25_S25x2048_S1000x2048_1_0_0_1_n_n 25 rfl rfl).symm]
  refine Finset.sum_congr rfl fun c _ => ?_
  have c2 := contrEquiv1_symm_val dot_S1000x25_S25x2048_S1000x2048_1_0_0_1_n_n 25 rfl rfl c
  -- the left operand is read at (p, c): its free axis 0 follows the output's row, its contracted axis 1 the coordinate
  have l2 : (dot_S1000x25_S25x2048_S1000x2048_1_0_0_1_n_n).lhsIdx (ix2 p q) ((contrEquiv1 _ 25 rfl rfl).symm c) = ix2 p c := by
    funext ax; apply Fin.ext
    match ax with
    | ⟨0, _⟩ => simp [DotDims.lhsIdx, dot_S1000x25_S25x2048_S1000x2048_1_0_0_1_n_n]; rfl
    | ⟨1, _⟩ => simp [DotDims.lhsIdx, dot_S1000x25_S25x2048_S1000x2048_1_0_0_1_n_n]; exact c2
  -- the right operand is read at (c, q): its contracted axis 0 follows the coordinate, its free axis 1 the output's column
  have r2 : (dot_S1000x25_S25x2048_S1000x2048_1_0_0_1_n_n).rhsIdx (ix2 p q) ((contrEquiv1 _ 25 rfl rfl).symm c) = ix2 c q := by
    funext ax; apply Fin.ext
    match ax with
    | ⟨0, _⟩ => simp [DotDims.rhsIdx, dot_S1000x25_S25x2048_S1000x2048_1_0_0_1_n_n]; exact c2
    | ⟨1, _⟩ => simp [DotDims.rhsIdx, dot_S1000x25_S25x2048_S1000x2048_1_0_0_1_n_n]; rfl
  rw [l2, r2]

/-- A [1000, 55] by [55, 2048] product into the zero accumulator, read at (p, q): the sum over the 55 contracted positions of the products of the entries. -/
theorem matmul_1000x55_apply (A : FVec Ideal S1000x55 .bf16) (B : FVec Ideal S55x2048 .bf16) (p : Fin 1000) (q : Fin 2048) :
    matmul dot_S1000x55_S55x2048_S1000x2048_1_0_0_1_n_n none A B (constant S1000x2048 .f32 0x00000000#32) (ix2 p q)
      = ∑ c : Fin 55, A (ix2 p c) * B (ix2 c q) := by
  show FloatOps.matmul _ none A B (constant S1000x2048 .f32 0x00000000#32) (ix2 p q) = _
  -- the sum over the one-axis contraction index is the sum over its coordinate
  rw [Ideal.matmul_constant_zero_apply,
    ← Equiv.sum_comp (contrEquiv1 dot_S1000x55_S55x2048_S1000x2048_1_0_0_1_n_n 55 rfl rfl).symm]
  refine Finset.sum_congr rfl fun c _ => ?_
  have c2 := contrEquiv1_symm_val dot_S1000x55_S55x2048_S1000x2048_1_0_0_1_n_n 55 rfl rfl c
  -- the left operand is read at (p, c): its free axis 0 follows the output's row, its contracted axis 1 the coordinate
  have l2 : (dot_S1000x55_S55x2048_S1000x2048_1_0_0_1_n_n).lhsIdx (ix2 p q) ((contrEquiv1 _ 55 rfl rfl).symm c) = ix2 p c := by
    funext ax; apply Fin.ext
    match ax with
    | ⟨0, _⟩ => simp [DotDims.lhsIdx, dot_S1000x55_S55x2048_S1000x2048_1_0_0_1_n_n]; rfl
    | ⟨1, _⟩ => simp [DotDims.lhsIdx, dot_S1000x55_S55x2048_S1000x2048_1_0_0_1_n_n]; exact c2
  -- the right operand is read at (c, q): its contracted axis 0 follows the coordinate, its free axis 1 the output's column
  have r2 : (dot_S1000x55_S55x2048_S1000x2048_1_0_0_1_n_n).rhsIdx (ix2 p q) ((contrEquiv1 _ 55 rfl rfl).symm c) = ix2 c q := by
    funext ax; apply Fin.ext
    match ax with
    | ⟨0, _⟩ => simp [DotDims.rhsIdx, dot_S1000x55_S55x2048_S1000x2048_1_0_0_1_n_n]; exact c2
    | ⟨1, _⟩ => simp [DotDims.rhsIdx, dot_S1000x55_S55x2048_S1000x2048_1_0_0_1_n_n]; rfl
  rw [l2, r2]

/-- A [25, 1000] by [1000, 2048] product into the zero accumulator, read at (p, q): the sum over the 1000 contracted positions of the products of the entries. -/
theorem matmul_25x1000_apply (A : FVec Ideal S25x1000 .bf16) (B : FVec Ideal S1000x2048 .bf16) (p : Fin 25) (q : Fin 2048) :
    matmul dot_S25x1000_S1000x2048_S25x2048_1_0_0_1_n_n none A B (constant S25x2048 .f32 0x00000000#32) (ix2 p q)
      = ∑ c : Fin 1000, A (ix2 p c) * B (ix2 c q) := by
  show FloatOps.matmul _ none A B (constant S25x2048 .f32 0x00000000#32) (ix2 p q) = _
  -- the sum over the one-axis contraction index is the sum over its coordinate
  rw [Ideal.matmul_constant_zero_apply,
    ← Equiv.sum_comp (contrEquiv1 dot_S25x1000_S1000x2048_S25x2048_1_0_0_1_n_n 1000 rfl rfl).symm]
  refine Finset.sum_congr rfl fun c _ => ?_
  have c2 := contrEquiv1_symm_val dot_S25x1000_S1000x2048_S25x2048_1_0_0_1_n_n 1000 rfl rfl c
  -- the left operand is read at (p, c): its free axis 0 follows the output's row, its contracted axis 1 the coordinate
  have l2 : (dot_S25x1000_S1000x2048_S25x2048_1_0_0_1_n_n).lhsIdx (ix2 p q) ((contrEquiv1 _ 1000 rfl rfl).symm c) = ix2 p c := by
    funext ax; apply Fin.ext
    match ax with
    | ⟨0, _⟩ => simp [DotDims.lhsIdx, dot_S25x1000_S1000x2048_S25x2048_1_0_0_1_n_n]; rfl
    | ⟨1, _⟩ => simp [DotDims.lhsIdx, dot_S25x1000_S1000x2048_S25x2048_1_0_0_1_n_n]; exact c2
  -- the right operand is read at (c, q): its contracted axis 0 follows the coordinate, its free axis 1 the output's column
  have r2 : (dot_S25x1000_S1000x2048_S25x2048_1_0_0_1_n_n).rhsIdx (ix2 p q) ((contrEquiv1 _ 1000 rfl rfl).symm c) = ix2 c q := by
    funext ax; apply Fin.ext
    match ax with
    | ⟨0, _⟩ => simp [DotDims.rhsIdx, dot_S25x1000_S1000x2048_S25x2048_1_0_0_1_n_n]; exact c2
    | ⟨1, _⟩ => simp [DotDims.rhsIdx, dot_S25x1000_S1000x2048_S25x2048_1_0_0_1_n_n]; rfl
  rw [l2, r2]

/-- The column [1000, 1] laid over the 2048 columns, read at (n, q): the column's entry (n, 0). -/
theorem column_apply (v : FVec Ideal S1000x1 .f32) (h : S1000x1.Broadcasts S1000x2048) (n : Fin 1000) (q : Fin 2048) :
    broadcastTo S1000x2048 v h (ix2 n q) = v (ix2 n (0 : Fin 1)) := by
  refine broadcastTo_apply v h (ix2 n q) (ix2 n (0 : Fin 1)) fun a => ?_
  match a with
  | ⟨0, _⟩ => rfl
  | ⟨1, _⟩ => rfl

/-- The stored block at entry (k, j) is the four-product form of the specification over the loaded blocks. -/
theorem pay_apply (x0 x1 : Vec Ideal S25x2048 .bf16) (x2 : Vec Ideal S55x2048 .bf16) (x3 x4 : Vec Ideal S1000x25 .bf16)
    (x5 : Vec Ideal S1000x55 .bf16) (x6 : Vec Ideal S25x1000 .bf16) (x7 : Vec Ideal S1000x1 .f32)
    (k : Fin 25) (j : Fin 2048) :
    Cert.KernelIdeal.Gen.k0_pay1 (F := Ideal) x0 x1 x2 x3 x4 x5 x6 x7 (ix2 k j)
      = outT (C := 2048) x0 x1 x2 x3 x4 x5 x6 x7 k j := by
  unfold Cert.KernelIdeal.Gen.k0_pay1
  -- a shape cast of a shape to itself is the identity
  simp only [shapeCast_self]
  -- the outer product: the sum over the 1000 terms
  refine (matmul_25x1000_apply _ _ k j).trans ?_
  unfold outT
  refine Finset.sum_congr rfl fun n _ => ?_
  -- under the sum, the joined block is read entry by entry
  rw [truncf_apply, mulf_apply, mulf_apply, mulf_apply, matmul_1000x25_apply, matmul_1000x25_apply,
    matmul_1000x55_apply, column_apply]

end Cert.WTP

end
-- ==== Proof.KBlocks.lean ====
/-
  From the kernel's blocks to its result array.

  The region runs the body at 128 grid points. At point t it reads columns 2048 t … 2048 t + 2047 of the three re-laid
  operands (all their rows), the four 0/1 matrices and the coefficient column whole, and writes back columns
  2048 t … 2048 t + 2047 of the [25, 262144] result. What it writes at (k, j) is the four-product form over its blocks,
  which reads the operands only at column 2048 t + j; so block t of the result is block t of ONE function of the arrays
  the region finds: entry (k, col) is the four-product form over the whole arrays at column col. The 128 blocks tile
  the result array (column col lies in block col / 2048), so the array ends holding that function.
-/
import proofs.«429262_j13254269075604_2_alg».proof.Proof.Gen.KernelIdeal.Frame
import proofs.«429262_j13254269075604_2_alg».proof.Proof.Spec
import proofs.«429262_j13254269075604_2_alg».proof.Proof.KBody
import Idealize.ShloMosaic.Lib.Pipeline.Value
import Idealize.ShloMosaic.Lib.ValueIdx

set_option maxRecDepth 16384

noncomputable section

open scoped BigOperators

namespace Cert.WTP

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The four-product form reads its first three operands only at one column: blocks that agree with the arrays there
    give the same entry. -/
theorem outT_of_cols {C C' : Nat} (A1 A2 : (⟨2, ![25, C]⟩ : Shape).Idx → EReal) (A3 : (⟨2, ![55, C]⟩ : Shape).Idx → EReal)
    (B1 B2 : (⟨2, ![25, C']⟩ : Shape).Idx → EReal) (B3 : (⟨2, ![55, C']⟩ : Shape).Idx → EReal)
    (O1 O2 : (⟨2, ![1000, 25]⟩ : Shape).Idx → EReal) (O3 : (⟨2, ![1000, 55]⟩ : Shape).Idx → EReal)
    (O4 : (⟨2, ![25, 1000]⟩ : Shape).Idx → EReal) (CG : (⟨2, ![1000, 1]⟩ : Shape).Idx → EReal)
    (k : Fin 25) (j : Fin C') (col : Fin C)
    (h1 : ∀ r : Fin 25, B1 (ix2 r j) = A1 (ix2 r col)) (h2 : ∀ r : Fin 25, B2 (ix2 r j) = A2 (ix2 r col))
    (h3 : ∀ r : Fin 55, B3 (ix2 r j) = A3 (ix2 r col)) :
    outT B1 B2 B3 O1 O2 O3 O4 CG k j = outT A1 A2 A3 O1 O2 O3 O4 CG k col := by
  unfold outT
  simp only [h1, h2, h3]

variable (m : (ℓ : Loc nD τ sig) → Buf (Elt Ideal) ℓ)

theorem hz : (![0, 0] : Fin 2 → Nat) = fun _ => 0 := funext fun a => by fin_cases a <;> rfl

/-- The printed index maps over the grid: the three operand windows and the result window sit at block (0, t); the
    other five windows at block (0, 0). -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = t.val :=
  (by decide +kernel : ∀ t : Fin grid0.N, _)

/-- The result array as one function of the arrays the region finds: entry (k, col) is the four-product form at
    column col. -/
def outArr (c : Dev nD) : S25x262144.Idx → EReal := fun i =>
  outT (C := 262144) (V m c main_v12) (V m c main_v15) (V m c main_v18) (V m c main_v1) (V m c main_v3) (V m c main_v5)
    (V m c main_v8) (V m c main_v9) (i 0) (i 1)

/-! ## The blocks the body reads -/

theorem iblk0_apply (c : Dev nD) (t : Fin cfg0.N) (r : Fin 25) (j : Fin 2048) (col : Fin 262144) (hcol : col.val = t.val * 2048 + j.val) :
    (iblk m c 0 t : S25x2048.Idx → EReal) (ix2 r j) = V m c main_v12 (ix2 r col) := by
  obtain ⟨e0, e1, -⟩ := idx_facts t
  unfold iblk
  rw [View.read_apply]
  show V m c main_v12 _ = V m c main_v12 _
  refine congrArg (V m c main_v12) (funext fun a => Fin.ext ?_)
  match a with
  | ⟨0, _⟩ => show win0_0.index t (0 : Fin 2) * 25 + 1 * r.val = r.val; rw [e0]; omega
  | ⟨1, _⟩ => show win0_0.index t (1 : Fin 2) * 2048 + 1 * j.val = col.val; rw [e1, hcol]; omega

theorem iblk1_apply (c : Dev nD) (t : Fin cfg0.N) (r : Fin 25) (j : Fin 2048) (col : Fin 262144) (hcol : col.val = t.val * 2048 + j.val) :
    (iblk m c 1 t : S25x2048.Idx → EReal) (ix2 r j) = V m c main_v15 (ix2 r col) := by
  obtain ⟨-, -, e0, e1, -⟩ := idx_facts t
  unfold iblk
  rw [View.read_apply]
  show V m c main_v15 _ = V m c main_v15 _
  refine congrArg (V m c main_v15) (funext fun a => Fin.ext ?_)
  match a with
  | ⟨0, _⟩ => show win0_1.index t (0 : Fin 2) * 25 + 1 * r.val = r.val; rw [e0]; omega
  | ⟨1, _⟩ => show win0_1.index t (1 : Fin 2) * 2048 + 1 * j.val = col.val; rw [e1, hcol]; omega

theorem iblk2_apply (c : Dev nD) (t : Fin cfg0.N) (r : Fin 55) (j : Fin 2048) (col : Fin 262144) (hcol : col.val = t.val * 2048 + j.val) :
    (iblk m c 2 t : S55x2048.Idx → EReal) (ix2 r j) = V m c main_v18 (ix2 r col) := by
  obtain ⟨-, -, -, -, e0, e1, -⟩ := idx_facts t
  unfold iblk
  rw [View.read_apply]
  show V m c main_v18 _ = V m c main_v18 _
  refine congrArg (V m c main_v18) (funext fun a => Fin.ext ?_)
  match a with
  | ⟨0, _⟩ => show win0_2.index t (0 : Fin 2) * 55 + 1 * r.val = r.val; rw [e0]; omega
  | ⟨1, _⟩ => show win0_2.index t (1 : Fin 2) * 2048 + 1 * j.val = col.val; rw [e1, hcol]; omega

/-- A window whose block is the whole array, at block (0, 0), reads the array. -/
theorem iblk3_eq (c : Dev nD) (t : Fin cfg0.N) : (iblk m c 3 t : S1000x25.Idx → EReal) = V m c main_v1 := by
  obtain ⟨-, -, -, -, -, -, e0, e1, -⟩ := idx_facts t
  funext y
  unfold iblk
  rw [View.read_apply]
  show V m c main_v1 _ = V m c main_v1 _
  refine congrArg (V m c main_v1) (funext fun a => Fin.ext ?_)
  match a with
  | ⟨0, _⟩ => show win0_3.index t (0 : Fin 2) * 1000 + 1 * (y 0).val = (y 0).val; rw [e0]; omega
  | ⟨1, _⟩ => show win0_3.index t (1 : Fin 2) * 25 + 1 * (y 1).val = (y 1).val; rw [e1]; omega

theorem iblk4_eq (c : Dev nD) (t : Fin cfg0.N) : (iblk m c 4 t : S1000x25.Idx → EReal) = V m c main_v3 := by
  obtain ⟨-, -, -, -, -, -, -, -, e0, e1, -⟩ := idx_facts t
  funext y
  unfold iblk
  rw [View.read_apply]
  show V m c main_v3 _ = V m c main_v3 _
  refine congrArg (V m c main_v3) (funext fun a => Fin.ext ?_)
  match a with
  | ⟨0, _⟩ => show win0_4.index t (0 : Fin 2) * 1000 + 1 * (y 0).val = (y 0).val; rw [e0]; omega
  | ⟨1, _⟩ => show win0_4.index t (1 : Fin 2) * 25 + 1 * (y 1).val = (y 1).val; rw [e1]; omega

theorem iblk5_eq (c : Dev nD) (t : Fin cfg0.N) : (iblk m c 5 t : S1000x55.Idx → EReal) = V m c main_v5 := by
  obtain ⟨-, -, -, -, -, -, -, -, -, -, e0, e1, -⟩ := idx_facts t
  funext y
  unfold iblk
  rw [View.read_apply]
  show V m c main_v5 _ = V m c main_v5 _
  refine congrArg (V m c main_v5) (funext fun a => Fin.ext ?_)
  match a with
  | ⟨0, _⟩ => show win0_5.index t (0 : Fin 2) * 1000 + 1 * (y 0).val = (y 0).val; rw [e0]; omega
  | ⟨1, _⟩ => show win0_5.index t (1 : Fin 2) * 55 + 1 * (y 1).val = (y 1).val; rw [e1]; omega

theorem iblk6_eq (c : Dev nD) (t : Fin cfg0.N) : (iblk m c 6 t : S25x1000.Idx → EReal) = V m c main_v8 := by
  obtain ⟨-, -, -, -, -, -, -, -, -, -, -, -, e0, e1, -⟩ := idx_facts t
  funext y
  unfold iblk
  rw [View.read_apply]
  show V m c main_v8 _ = V m c main_v8 _
  refine congrArg (V m c main_v8) (funext fun a => Fin.ext ?_)
  match a with
  | ⟨0, _⟩ => show win0_6.index t (0 : Fin 2) * 25 + 1 * (y 0).val = (y 0).val; rw [e0]; omega
  | ⟨1, _⟩ => show win0_6.index t (1 : Fin 2) * 1000 + 1 * (y 1).val = (y 1).val; rw [e1]; omega

theorem iblk7_eq (c : Dev nD) (t : Fin cfg0.N) : (iblk m c 7 t : S1000x1.Idx → EReal) = V m c main_v9 := by
  obtain ⟨-, -, -, -, -, -, -, -, -, -, -, -, -, -, e0, e1, -⟩ := idx_facts t
  funext y
  unfold iblk
  rw [View.read_apply]
  show V m c main_v9 _ = V m c main_v9 _
  refine congrArg (V m c main_v9) (funext fun a => Fin.ext ?_)
  match a with
  | ⟨0, _⟩ => show win0_7.index t (0 : Fin 2) * 1000 + 1 * (y 0).val = (y 0).val; rw [e0]; omega
  | ⟨1, _⟩ => show win0_7.index t (1 : Fin 2) * 1 + 1 * (y 1).val = (y 1).val; rw [e1]; omega

/-! ## What a point writes back -/

/-- The stored block at point t, entry (k, j), is the result function at (k, 2048 t + j). -/
theorem stored_apply (c : Dev nD) (t : Fin cfg0.N) (k : Fin 25) (j : Fin 2048) (col : Fin 262144) (hcol : col.val = t.val * 2048 + j.val) :
    k0_pay1 (F := Ideal) (iblk m c 0 t) (iblk m c 1 t) (iblk m c 2 t) (iblk m c 3 t) (iblk m c 4 t) (iblk m c 5 t) (iblk m c 6 t) (iblk m c 7 t) (ix2 k j)
      = outArr m c (ix2 k col) := by
  refine (pay_apply (iblk m c 0 t) (iblk m c 1 t) (iblk m c 2 t) (iblk m c 3 t) (iblk m c 4 t) (iblk m c 5 t) (iblk m c 6 t) (iblk m c 7 t) k j).trans ?_
  rw [iblk3_eq m c t, iblk4_eq m c t, iblk5_eq m c t, iblk6_eq m c t, iblk7_eq m c t]
  exact outT_of_cols (V m c main_v12) (V m c main_v15) (V m c main_v18) (iblk m c 0 t) (iblk m c 1 t) (iblk m c 2 t)
    (V m c main_v1) (V m c main_v3) (V m c main_v5) (V m c main_v8) (V m c main_v9) k j col
    (fun r => iblk0_apply m c t r j col hcol) (fun r => iblk1_apply m c t r j col hcol) (fun r => iblk2_apply m c t r j col hcol)

/-- WHAT POINT t WRITES BACK is block t of the result function. -/
theorem flushed_eq (c : Dev nD) (t : Fin cfg0.N) :
    (dats m 0 c).flushed 8 t = ((cfg0.win 8).blk t).view.read (Elt Ideal) (outArr m c) := by
  show (cfg0.win 8).cut (grid0.coords t) ((dats m 0 c).after 8 t) = _
  rw [after0_8]
  unfold out0_8
  rw [View.canon_unit_zero hz]
  simp only [View.ld_unit_zero (S := S25x2048) hz, View.ld_unit_zero (S := S55x2048) hz, View.ld_unit_zero (S := S1000x25) hz,
    View.ld_unit_zero (S := S1000x55) hz, View.ld_unit_zero (S := S25x1000) hz, View.ld_unit_zero (S := S1000x1) hz]
  obtain ⟨-, -, -, -, -, -, -, -, -, -, -, -, -, -, -, -, e0, e1⟩ := idx_facts t
  funext y
  have ht : t.val < 128 := t.isLt
  have hy0 : (y 0).val < 25 := (y 0).isLt
  have hy1 : (y 1).val < 2048 := (y 1).isLt
  show k0_pay1 (F := Ideal) (iblk m c 0 t) (iblk m c 1 t) (iblk m c 2 t) (iblk m c 3 t) (iblk m c 4 t) (iblk m c 5 t) (iblk m c 6 t) (iblk m c 7 t) y
    = outArr m c (((cfg0.win 8).blk t).view.emb y)
  have hyy : y = ix2 (⟨(y 0).val, hy0⟩ : Fin 25) (⟨(y 1).val, hy1⟩ : Fin 2048) := by
    funext a; apply Fin.ext
    match a with
    | ⟨0, _⟩ => rfl
    | ⟨1, _⟩ => rfl
  have hemb : ((cfg0.win 8).blk t).view.emb y
      = ix2 (⟨(y 0).val, hy0⟩ : Fin 25) (⟨t.val * 2048 + (y 1).val, by omega⟩ : Fin 262144) := by
    funext a; apply Fin.ext
    match a with
    | ⟨0, _⟩ => show win0_8.index t (0 : Fin 2) * 25 + 1 * (y 0).val = (y 0).val; rw [e0]; omega
    | ⟨1, _⟩ => show win0_8.index t (1 : Fin 2) * 2048 + 1 * (y 1).val = t.val * 2048 + (y 1).val; rw [e1]; omega
  rw [hemb]
  refine Eq.trans (congrArg _ hyy) ?_
  exact stored_apply m c t ⟨(y 0).val, hy0⟩ ⟨(y 1).val, hy1⟩ ⟨t.val * 2048 + (y 1).val, by omega⟩ rfl

/-- THE RESULT ARRAY after the region: the result function, the 128 column blocks tiling it. -/
theorem final8 (c : Dev nD) : (dats m 0 c).arrAt 8 cfg0.N = outArr m c :=
  (dats m 0 c).arrAt_eq_of_cover 8 (outArr m c) (fun t _ => flushed_eq m c t) fun i => by
    have hi0 : (i 0).val < 25 := (i 0).isLt
    have hi1 : (i 1).val < 262144 := (i 1).isLt
    have hN : cfg0.N = 128 := N_0
    have htlt : (i 1).val / 2048 < cfg0.N := by rw [hN]; omega
    obtain ⟨-, -, -, -, -, -, -, -, -, -, -, -, -, -, -, -, e0, e1⟩ := idx_facts ⟨(i 1).val / 2048, htlt⟩
    refine ⟨⟨(i 1).val / 2048, htlt⟩, flush0_8 _, ?_⟩
    show i ∈ ((View.whole main_v19).slice (win0_8.rect (⟨(i 1).val / 2048, htlt⟩ : Fin cfg0.N))).set
    rw [View.set_slice_whole, Rect.mem_set_unit]
    intro a
    match a with
    | ⟨0, _⟩ =>
      show win0_8.index (⟨(i 1).val / 2048, htlt⟩ : Fin cfg0.N) (0 : Fin 2) * 25 ≤ (i 0).val
        ∧ (i 0).val < win0_8.index (⟨(i 1).val / 2048, htlt⟩ : Fin cfg0.N) (0 : Fin 2) * 25 + 25
      rw [e0]; omega
    | ⟨1, _⟩ =>
      show win0_8.index (⟨(i 1).val / 2048, htlt⟩ : Fin cfg0.N) (1 : Fin 2) * 2048 ≤ (i 1).val
        ∧ (i 1).val < win0_8.index (⟨(i 1).val / 2048, htlt⟩ : Fin cfg0.N) (1 : Fin 2) * 2048 + 2048
      rw [e1]
      show (i 1).val / 2048 * 2048 ≤ (i 1).val ∧ (i 1).val < (i 1).val / 2048 * 2048 + 2048
      omega

end Cert.WTP

end
-- ==== Proof.KTail.lean ====
/-
  After the region: the [25, 262144] result array is split back into [25, 4096, 64] and its first two axes swapped, so
  entry (b, k, ch) of the program's result is entry (k, b · 64 + ch) of the array the region left; and the program's run
  read back: the result at that term, the arguments unchanged.
-/
import proofs.«429262_j13254269075604_2_alg».proof.Proof.Gen.KernelIdeal.Frame
import Idealize.ShloMosaic.Lib.StableHlo.Run
import Idealize.ShloMosaic.Lib.Pipeline.Value
import Idealize.ShloMosaic.Lib.ValueIdx

noncomputable section

namespace Cert.WTP

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg)

/-- The program's result buffer after the two operations that follow the region, over the array the region left. -/
theorem tail_eq (c : Dev nD) : Pipeline.afterTail₀ cfgs (dats m) 0 (V0 m) [hostOps1] c main_v21
    = (transpose S4096x25x64 [1, 0, 2] (shapeCast S25x4096x64 ((dats m 0 c).arrAt 8 cfg0.N) shapeCasts_S25x262144_S25x4096x64)
        transposes_S25x4096x64_S4096x25x64_1_0_2 : S4096x25x64.Idx → EReal) := by
  unfold Pipeline.afterTail₀
  show StableHlo.after hostOps1 _ (Proc.devRef .tc main_v21) = _
  after_results
  have hw : Pipeline.withArrays (cfgs 0).spec c (V0 m c) (fun w => (dats m 0 c).arrAt w (cfgs 0).N) (Proc.devRef .tc main_v19)
      = (dats m 0 c).arrAt 8 cfg0.N :=
    Pipeline.withArrays_arr spec0 launch0.win.arr_inj c (V0 m c) (fun w => (dats m 0 c).arrAt w cfg0.N) 8
  rw [hw]
  rfl

/-- Entry (b, k, ch) of the program's result is entry (k, b · 64 + ch) of the array the region left. -/
theorem tail_apply (c : Dev nD) (b : Fin 4096) (k : Fin 25) (ch : Fin 64) :
    Pipeline.afterTail₀ cfgs (dats m) 0 (V0 m) [hostOps1] c main_v21 (ix3 b k ch)
      = (dats m 0 c).arrAt 8 cfg0.N (ix2 k (⟨b.val * 64 + ch.val, by have := b.isLt; have := ch.isLt; omega⟩ : Fin 262144)) := by
  rw [tail_eq]
  refine (transpose_apply [1, 0, 2] _ transposes_S25x4096x64_S4096x25x64_1_0_2 (ix3 b k ch) (ix3 k b ch) ?_).trans ?_
  · intro a
    match a with
    | ⟨0, _⟩ => rfl
    | ⟨1, _⟩ => rfl
    | ⟨2, _⟩ => rfl
  · refine shapeCast_apply _ shapeCasts_S25x262144_S25x4096x64 (ix3 k b ch)
      (ix2 k (⟨b.val * 64 + ch.val, by have := b.isLt; have := ch.isLt; omega⟩ : Fin 262144)) ?_
    rw [Shape.rowMajor_val_three, Shape.rowMajor_val_two]
    show k.val * 262144 + (b.val * 64 + ch.val) = (k.val * 4096 + b.val) * 64 + ch.val
    omega

/-- The program's run, read back: every weakly fair execution ends with the result buffer at the term above and the
    eight arguments unchanged. -/
theorem kernel_run : θ_run defs (onTc (τ := τ) (main (F := Ideal))) ⟨m, fun _ => 0, ρ⟩ (fun r => ∀ c : Dev nD,
      r.2.mem ((c.tc : Thread nD τ).loc main_v21) = Pipeline.afterTail₀ cfgs (dats m) 0 (V0 m) [hostOps1] c main_v21
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).2 main_v21 (Pipeline.mem_restRefs_of main_v21 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.WTP

end
-- ==== Proof.LibRowTake.lean ====
/-
  A table's row selected by an index column, read two ways.

  (1) THE ROW GATHER. jnp's `T[idx]` for a matrix `T : [K, C]` and a column of start indices `[n, 1]` is a
      `stablehlo.gather` whose axis 0 is collapsed and start-indexed, whose axis 1 is the one offset axis, with no
      batching axes and the index vector on axis 1. Its entry `(r, c)` is `T (k, c)`, where `k` is row `r`'s start
      index read signed and clamped into `[0, K - 1]` (`gather_rows`); when the word is the word of some `k₀ < K`
      that row is `k₀` itself (`gather_rows_of_word`).
  (2) THE ONE-HOT PRODUCT. Over the extended reals `∑ k, e k * T k = T k₀` when `e k₀ = 1` and `e k = 0` for
      `k ≠ k₀` (`sum_onehot_mul`): `0 * a = 0` and `a + 0 = a` hold for every extended real, the infinities included,
      so no finiteness is asked of `T`. The row `e` a kernel builds from a 32-bit word `w` — compare `w` with the word
      of each `k`, widen the bit to 32 bits, convert to a float — is that `e` when `w` is the word of `k₀`
      (`onehotWord`, `sum_onehotWord_mul`).
  So a matrix product with that one-hot row and the row gather read the same entry of the table.
-/
import Idealize.ShloMosaic.PureOps.Ideal
import Idealize.ShloMosaic.Lib.ValueIdx

noncomputable section

open scoped BigOperators

namespace Cert.RowTake

open Idealize.ShloMosaic Idealize.ShloMosaic.ValueIdx

/-! ## The row gather -/

/-- Entry `(r, c)` of the row gather is the table at `(k, c)`, `k` the start index of row `r` read signed and clamped
    into `[0, K - 1]`. The hypotheses are the printed dimension numbers, each by `rfl`. -/
theorem gather_rows {α : Type} {K C n w : Nat} (hK : 0 < K)
    (d : GatherDims ⟨2, ![K, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![K, C]⟩ : Shape).Idx → α) (idx : IVec ⟨2, ![n, 1]⟩ w) (r : Fin n) (c : Fin C) :
    Host.gather d x idx (ix2 r c)
      = x (ix2 (⟨min (idx (ix2 r (0 : Fin 1))).toInt.toNat (K - 1), by omega⟩ : Fin K) c) := by
  unfold Host.gather
  congr 1
  funext a
  apply Fin.ext
  have hb : ∀ a : Fin 2, a ∉ d.operandBatchingDims := fun a => by rw [hob]; exact List.not_mem_nil
  -- every offset axis of the result is axis 1, every batch axis is axis 0
  have hall1 : ∀ a ∈ d.offsetDims, a = (1 : Fin 2) := by
    rw [hoff]; intro a ha; exact List.mem_singleton.mp ha
  have hall0 : ∀ a ∈ d.batchDims, a = (0 : Fin 2) := by
    intro a ha
    have hne : a ∉ d.offsetDims := by
      have := (List.mem_filter.mp ha).2
      simpa using this
    rw [hoff, List.mem_singleton] at hne
    match a, hne with
    | ⟨0, _⟩, _ => rfl
    | ⟨1, _⟩, hne => exact absurd rfl hne
  match a with
  | ⟨0, _⟩ =>
    -- the collapsed, start-indexed axis: the clamped start index, nothing added
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 r c) idx 0 + d.batchCoord (ix2 r c) 0 + d.offCoord (ix2 r c) 0 = _
    rw [GatherDims.batchCoord_eq_zero _ _ _ (hb 0), GatherDims.offCoord_eq_zero _ _ _ hk]
    simp only [Nat.add_zero]
    unfold GatherDims.start
    rw [dif_pos hm]
    show min (idx _).toInt.toNat (K - d.sliceSizes 0) = min (idx (ix2 r (0 : Fin 1))).toInt.toNat (K - 1)
    rw [hsl]
    congr 3
    congr 1
    funext b
    match b with
    | ⟨0, _⟩ =>
      -- the start indices' row is the result's batch coordinate, its row
      unfold GatherDims.siIdx
      rw [dif_neg (by rw [hivd]; simp)]
      unfold GatherDims.siCoord
      apply Fin.ext
      simp only [Fin.val_cast]
      have e : ∀ X : Fin 2, X = 0 → ((ix2 r c : (⟨2, ![n, C]⟩ : Shape).Idx) X).val = r.val := fun X hX => by
        subst hX; rfl
      exact e _ (hall0 _ (List.getElem_mem _))
    | ⟨1, _⟩ =>
      unfold GatherDims.siIdx
      rw [dif_pos (by rw [hivd])]
      apply Fin.ext
      show List.idxOf (0 : Fin 2) d.startIndexMap = 0
      rw [hsim]; simp
  | ⟨1, _⟩ =>
    -- the offset axis: no start, the result's column
    have hm : (1 : Fin 2) ∉ d.startIndexMap := by rw [hsim]; simp
    have hk : (1 : Fin 2) ∈ d.sKept := by rw [GatherDims.mem_sKept, hcoll]; exact ⟨by simp, hb 1⟩
    show d.start (ix2 r c) idx 1 + d.batchCoord (ix2 r c) 1 + d.offCoord (ix2 r c) 1 = c.val
    rw [GatherDims.batchCoord_eq_zero _ _ _ (hb 1)]
    unfold GatherDims.start GatherDims.offCoord
    rw [dif_neg hm, dif_pos hk]
    simp only [Nat.add_zero, Nat.zero_add]
    have e : ∀ X : Fin 2, X = 1 → ((ix2 r c : (⟨2, ![n, C]⟩ : Shape).Idx) X).val = c.val := fun X hX => by
      subst hX; rfl
    exact e _ (hall1 _ (List.getElem_mem _))

/-- A 32-bit word that is the word of `k < 2 ^ 31`, read signed, is `k`. -/
theorem toInt_toNat_ofNat (k : Nat) (hk : k < 2147483648) : (BitVec.ofNat 32 k).toInt.toNat = k := by
  have h1 : (BitVec.ofNat 32 k).toNat = k := by
    rw [BitVec.toNat_ofNat]; exact Nat.mod_eq_of_lt (by omega)
  rw [BitVec.toInt_eq_toNat_cond, h1]
  have : 2 * k < 2 ^ 32 := by omega
  rw [if_pos this]
  simp

/-- The row gather at a start index that is the word of `k₀ < K`: row `k₀`, no clamp. -/
theorem gather_rows_of_word {α : Type} {K C n : Nat} (hK32 : K ≤ 2147483648)
    (d : GatherDims ⟨2, ![K, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![K, C]⟩ : Shape).Idx → α) (idx : IVec ⟨2, ![n, 1]⟩ 32) (r : Fin n) (c : Fin C) (k₀ : Fin K)
    (hw : idx (ix2 r (0 : Fin 1)) = BitVec.ofNat 32 k₀.val) :
    Host.gather d x idx (ix2 r c) = x (ix2 k₀ c) := by
  have hk0 := k₀.isLt
  rw [gather_rows (by omega) d hoff hcoll hob hsim hivd]
  congr 2
  apply Fin.ext
  show min (idx (ix2 r (0 : Fin 1))).toInt.toNat (K - 1) = k₀.val
  rw [hw, toInt_toNat_ofNat _ (by omega)]
  omega

/-! ## The one-hot product -/

/-- A sum of products with a one-hot row is the entry it selects, on the extended reals. -/
theorem sum_onehot_mul {K : Nat} (e T : Fin K → EReal) (k₀ : Fin K) (h1 : e k₀ = 1) (h0 : ∀ k, k ≠ k₀ → e k = 0) :
    ∑ k : Fin K, e k * T k = T k₀ := by
  rw [Finset.sum_eq_single k₀ (fun k _ hk => by rw [h0 k hk, zero_mul])
    (fun h => absurd (Finset.mem_univ _) h), h1, one_mul]

/-- The float a kernel makes of "word `w` is `k`": the comparison's bit, widened to 32 bits, converted signed. -/
def onehotWord (w : BitVec 32) (k : Nat) : EReal :=
  ((((IntOp.cmpi .eq w (BitVec.ofNat 32 k)).setWidth 32).toInt : ℝ) : EReal)

theorem onehotWord_self (k : Nat) : onehotWord (BitVec.ofNat 32 k) k = 1 := by
  unfold onehotWord IntOp.cmpi
  simp

theorem onehotWord_ne (k₀ k : Nat) (h0 : k₀ < 4294967296) (hk : k < 4294967296) (hne : k ≠ k₀) :
    onehotWord (BitVec.ofNat 32 k₀) k = 0 := by
  unfold onehotWord IntOp.cmpi
  have hneq : (BitVec.ofNat 32 k₀ == BitVec.ofNat 32 k) = false := by
    rw [beq_eq_false_iff_ne]
    intro h
    have := congrArg BitVec.toNat h
    rw [BitVec.toNat_ofNat, BitVec.toNat_ofNat, Nat.mod_eq_of_lt (by omega), Nat.mod_eq_of_lt (by omega)] at this
    exact hne this.symm
  simp [hneq]

/-- The product of the one-hot row of word `w` with a table's column is the table at the row `w` names. -/
theorem sum_onehotWord_mul {K : Nat} (hK : K ≤ 4294967296) (w : BitVec 32) (T : Fin K → EReal) (k₀ : Fin K)
    (hw : w = BitVec.ofNat 32 k₀.val) :
    ∑ k : Fin K, onehotWord w k.val * T k = T k₀ := by
  subst hw
  have h0 := k₀.isLt
  exact sum_onehot_mul _ T k₀ (onehotWord_self _)
    (fun k hk => onehotWord_ne _ _ (by omega) (by have := k.isLt; omega) (fun h => hk (Fin.ext h)))

end Cert.RowTake

end
-- ==== Proof.SpecLaw.lean ====
/-
  The law that joins the two forms of the weighted tensor product: four matrix products with one-hot matrices against
  the segment sum of gathered products.

  A sum of products of a one-hot row with a column is the column's entry at the hot position: every other product is
  0 · a = 0, and 1 · a = a, for every extended real a, the infinities included, so no finiteness is used. A sum of
  products of a 0/1 row with terms is the sum of the terms at the positions that hold 1.
-/
import proofs.«429262_j13254269075604_2_alg».proof.Proof.Spec
import proofs.«429262_j13254269075604_2_alg».proof.Proof.LibRowTake

noncomputable section

open scoped BigOperators

namespace Cert.WTP

open Idealize.ShloMosaic Idealize.ShloMosaic.ValueIdx

namespace Law

/-- The one-hot entry at the word's own position is 1. -/
theorem hot_self (j : Nat) : hot (BitVec.ofNat 32 j) j = 1 := by
  unfold hot IntOp.cmpi
  simp

/-- The one-hot entry at a position whose word differs is 0. -/
theorem hot_ne (w : BitVec 32) (j : Nat) (h : w ≠ BitVec.ofNat 32 j) : hot w j = 0 := by
  unfold hot IntOp.cmpi
  have hb : (w == BitVec.ofNat 32 j) = false := by rw [beq_eq_false_iff_ne]; exact h
  simp [hb]

/-- Distinct numbers below 2 ^ 32 have distinct words. -/
theorem ofNat_ne (j j' : Nat) (hj : j < 4294967296) (hj' : j' < 4294967296) (hne : j ≠ j') :
    BitVec.ofNat 32 j ≠ BitVec.ofNat 32 j' := by
  intro h
  have := congrArg BitVec.toNat h
  rw [BitVec.toNat_ofNat, BitVec.toNat_ofNat, Nat.mod_eq_of_lt (by omega), Nat.mod_eq_of_lt (by omega)] at this
  exact hne this

/-- The word of k < 2 ^ 31, read signed, is k. -/
theorem toInt_ofNat_small (k : Nat) (hk : k < 2147483648) : (BitVec.ofNat 32 k).toInt = (k : Int) := by
  have h1 : (BitVec.ofNat 32 k).toNat = k := by
    rw [BitVec.toNat_ofNat]; exact Nat.mod_eq_of_lt (by omega)
  rw [BitVec.toInt_eq_toNat_cond, h1]
  have : 2 * k < 2 ^ 32 := by omega
  rw [if_pos this]

/-- The word of a row of the axis, read signed and clamped, is that row. -/
theorem rowOf_ofNat (K : Nat) (hK : 0 < K) (hK32 : K ≤ 2147483648) (k₀ : Fin K) :
    rowOf K hK (BitVec.ofNat 32 k₀.val) = k₀ := by
  unfold rowOf
  apply Fin.ext
  show min (BitVec.ofNat 32 k₀.val).toInt.toNat (K - 1) = k₀.val
  have := k₀.isLt
  rw [Cert.RowTake.toInt_toNat_ofNat _ (by omega)]
  omega

/-- The product of the one-hot row of word w with a column is the column's entry at the row w names. -/
theorem sum_hot_mul {K : Nat} (hK : K ≤ 4294967296) (w : BitVec 32) (T : Fin K → EReal) (k₀ : Fin K)
    (hw : w = BitVec.ofNat 32 k₀.val) :
    ∑ j : Fin K, hot w j.val * T j = T k₀ := by
  subst hw
  have h0 := k₀.isLt
  exact Cert.RowTake.sum_onehot_mul _ T k₀ (hot_self _)
    (fun j hj => hot_ne _ _ (ofNat_ne _ _ (by omega) (by have := j.isLt; omega) (fun h => hj (Fin.ext h.symm))))

/-- For a row k of the output the one-hot entry is 1 exactly when the word, read signed, is k. -/
theorem hot_eq_ite (w : BitVec 32) (k : Fin 25) :
    hot w k.val = if w.toInt = (k.val : Int) then 1 else 0 := by
  have hk := k.isLt
  by_cases h : w = BitVec.ofNat 32 k.val
  · subst h
    rw [hot_self, if_pos (toInt_ofNat_small _ (by omega))]
  · rw [hot_ne _ _ h, if_neg]
    intro ht
    apply h
    apply BitVec.eq_of_toInt_eq
    rw [ht, toInt_ofNat_small _ (by omega)]

end Law

/-- THE LAW: with one-hot matrices built from the index words and column col of A1, A2, A3 holding batch b, channel c of
    x1, x2 and the weights, the four products give the segment sum of the terms. No finiteness is asked: 0 · a = 0 and
    1 · a = a hold for every extended real. -/
theorem outT_hot_eq_Gat (x1 x2 : (⟨3, ![4096, 25, 64]⟩ : Shape).Idx → EReal) (wt : (⟨3, ![4096, 55, 64]⟩ : Shape).Idx → EReal)
    (cg : (⟨1, ![1000]⟩ : Shape).Idx → EReal) (mo m1 m2 li : (⟨1, ![1000]⟩ : Shape).Idx → BitVec 32)
    (hR : Ranges mo m1 m2 li) (b : Fin 4096) (k : Fin 25) (c : Fin 64)
    {C : Nat} (A1 A2 : (⟨2, ![25, C]⟩ : Shape).Idx → EReal) (A3 : (⟨2, ![55, C]⟩ : Shape).Idx → EReal)
    (O1 O2 : (⟨2, ![1000, 25]⟩ : Shape).Idx → EReal) (O3 : (⟨2, ![1000, 55]⟩ : Shape).Idx → EReal)
    (O4 : (⟨2, ![25, 1000]⟩ : Shape).Idx → EReal) (CG : (⟨2, ![1000, 1]⟩ : Shape).Idx → EReal) (col : Fin C)
    (hA1 : ∀ j : Fin 25, A1 (ix2 j col) = x1 (ix3 b j c)) (hA2 : ∀ j : Fin 25, A2 (ix2 j col) = x2 (ix3 b j c))
    (hA3 : ∀ j : Fin 55, A3 (ix2 j col) = wt (ix3 b j c))
    (hO1 : ∀ (n : Fin 1000) (j : Fin 25), O1 (ix2 n j) = hot (m1 (ix1 n)) j.val)
    (hO2 : ∀ (n : Fin 1000) (j : Fin 25), O2 (ix2 n j) = hot (m2 (ix1 n)) j.val)
    (hO3 : ∀ (n : Fin 1000) (j : Fin 55), O3 (ix2 n j) = hot (li (ix1 n)) j.val)
    (hO4 : ∀ (k' : Fin 25) (n : Fin 1000), O4 (ix2 k' n) = hot (mo (ix1 n)) k'.val)
    (hCG : ∀ n : Fin 1000, CG (ix2 n (0 : Fin 1)) = cg (ix1 n)) :
    outT A1 A2 A3 O1 O2 O3 O4 CG k col = Gat x1 x2 wt cg mo m1 m2 li b k c := by
  unfold outT Gat
  rw [Finset.sum_filter]
  apply Finset.sum_congr rfl
  intro n _
  obtain ⟨k1, h1⟩ := hR.m1_lt n
  obtain ⟨k2, h2⟩ := hR.m2_lt n
  obtain ⟨k3, h3⟩ := hR.li_lt n
  -- each inner product with a one-hot row reads the entry of its array at the row the word names
  have e1 : ∑ j : Fin 25, O1 (ix2 n j) * A1 (ix2 j col) = x1 (ix3 b (rowOf 25 (by decide) (m1 (ix1 n))) c) := by
    rw [h1, Law.rowOf_ofNat 25 (by decide) (by decide) k1, ← hA1 k1,
      Finset.sum_congr rfl (fun j _ => by rw [hO1 n j, h1] :
        ∀ j ∈ Finset.univ, O1 (ix2 n j) * A1 (ix2 j col) = hot (BitVec.ofNat 32 k1.val) j.val * A1 (ix2 j col))]
    exact Law.sum_hot_mul (by decide) _ (fun j => A1 (ix2 j col)) k1 rfl
  have e2 : ∑ j : Fin 25, O2 (ix2 n j) * A2 (ix2 j col) = x2 (ix3 b (rowOf 25 (by decide) (m2 (ix1 n))) c) := by
    rw [h2, Law.rowOf_ofNat 25 (by decide) (by decide) k2, ← hA2 k2,
      Finset.sum_congr rfl (fun j _ => by rw [hO2 n j, h2] :
        ∀ j ∈ Finset.univ, O2 (ix2 n j) * A2 (ix2 j col) = hot (BitVec.ofNat 32 k2.val) j.val * A2 (ix2 j col))]
    exact Law.sum_hot_mul (by decide) _ (fun j => A2 (ix2 j col)) k2 rfl
  have e3 : ∑ j : Fin 55, O3 (ix2 n j) * A3 (ix2 j col) = wt (ix3 b (rowOf 55 (by decide) (li (ix1 n))) c) := by
    rw [h3, Law.rowOf_ofNat 55 (by decide) (by decide) k3, ← hA3 k3,
      Finset.sum_congr rfl (fun j _ => by rw [hO3 n j, h3] :
        ∀ j ∈ Finset.univ, O3 (ix2 n j) * A3 (ix2 j col) = hot (BitVec.ofNat 32 k3.val) j.val * A3 (ix2 j col))]
    exact Law.sum_hot_mul (by decide) _ (fun j => A3 (ix2 j col)) k3 rfl
  -- the 0/1 entry of the last product selects the term or kills it
  rw [hO4 k n, Law.hot_eq_ite, e1, e2, e3, hCG n]
  unfold term
  by_cases hk : (mo (ix1 n)).toInt = (k.val : Int)
  · rw [if_pos hk, if_pos hk, one_mul]
  · rw [if_neg hk, if_neg hk, zero_mul]

end Cert.WTP

end
-- ==== Proof.KVal.lean ====
/-
  The kernel's program computes the specification: entry (b, k, ch) of its result is the sum, over the terms n whose
  output row is k, of x1(b, m1 n, ch) · x2(b, m2 n, ch) · cg n · weight(b, li n, ch), when the index words are in range.

  Entry (b, k, ch) of the result is entry (k, b · 64 + ch) of the array the region leaves, which is the four-product form
  over the arrays the region finds at that column; those arrays are the re-laid arguments, the one-hot matrices of the
  index words and the coefficient column, and the law of the four products gives the segment sum.
-/
import proofs.«429262_j13254269075604_2_alg».proof.Proof.KHost
import proofs.«429262_j13254269075604_2_alg».proof.Proof.KBlocks
import proofs.«429262_j13254269075604_2_alg».proof.Proof.KTail
import proofs.«429262_j13254269075604_2_alg».proof.Proof.SpecLaw

noncomputable section

namespace Cert.WTP

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The kernel program's result at entry (b, k, ch) is the specification there. -/
theorem kernel_apply (c : Dev nD)
    (hR : Ranges (m ((c : Thread nD τ).loc main_arg4)) (m ((c : Thread nD τ).loc main_arg5))
      (m ((c : Thread nD τ).loc main_arg6)) (m ((c : Thread nD τ).loc main_arg7)))
    (b : Fin 4096) (k : Fin 25) (ch : Fin 64) :
    Pipeline.afterTail₀ cfgs (dats m) 0 (V0 m) [hostOps1] c main_v21 (ix3 b k ch)
      = Gat (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) b k ch := by
  rw [tail_apply m c b k ch, final8 m c]
  show outT (C := 262144) (V m c main_v12) (V m c main_v15) (V m c main_v18) (V m c main_v1) (V m c main_v3) (V m c main_v5)
    (V m c main_v8) (V m c main_v9) k (⟨b.val * 64 + ch.val, by have := b.isLt; have := ch.isLt; omega⟩ : Fin 262144) = _
  exact outT_hot_eq_Gat _ _ _ _ _ _ _ _ hR b k ch (V m c main_v12) (V m c main_v15) (V m c main_v18) (V m c main_v1)
    (V m c main_v3) (V m c main_v5) (V m c main_v8) (V m c main_v9) _
    (fun j => V_v12_apply m c j b ch) (fun j => V_v15_apply m c j b ch) (fun j => V_v18_apply m c j b ch)
    (fun n j => V_v1_apply m c n j) (fun n j => V_v3_apply m c n j) (fun n j => V_v5_apply m c n j)
    (fun k' n => V_v8_apply m c k' n) (fun n => V_v9_apply m c n)

end Cert.WTP

end
-- ==== Proof.LibScatterRead.lean ====
/-
  The two accumulating scatters and the row gather of a sparse-times-dense product, read at an index on the extended
  reals.

  An accumulating scatter leaves, at every element of its operand, that element plus the sum of the updates that land
  on it; an update lands where its start index, read signed and not clamped, plus its window coordinate says, and is
  dropped when that is outside the operand. Two layouts occur here. CELLS: the operand is a matrix [R, C], the start
  indices are pairs (row, column) in an array [N, 2], and update `k` of a vector [N] lands on the cell its pair names.
  ROWS: the operand is [R, B], the start indices a column [N, 1] of rows, and the updates an array [N, B] whose row
  `k` lands, entry by entry, on the operand row its start index names. The gather is the inverse reading: an operand
  [S, B] at a column [N, 1] of start indices gives [N, B], row `k` the operand's row at the start index, read signed
  and clamped into [0, S - 1].
-/
import Idealize.ShloMosaic.Lib.ValueIdx

noncomputable section

open scoped BigOperators

namespace Cert.SparseMM

open Idealize.ShloMosaic Idealize.ShloMosaic.ValueIdx

/-! ## Where an update lands, for any dimension numbers -/

/-- An update index lands on operand index `i` exactly when on every axis its start plus its window coordinate is
    `i`'s coordinate: inside the operand the landing index is those sums, and outside it there is none. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := congrFun (Option.some.inj e) a
      rw [← e']
      exact (Int.toNat_of_nonneg (h a).1).symm
    · intro e
      refine congrArg some (funext fun a => Fin.ext ?_)
      show (d.start j idx a + (d.window j a : Int)).toNat = (i a).val
      rw [e a]
      exact Int.toNat_natCast _
  · rename_i h
    constructor
    · intro e
      cases e
    · intro e
      refine absurd (fun a => ?_) h
      rw [e a]
      exact ⟨Int.natCast_nonneg _, by exact_mod_cast (i a).isLt⟩

/-- A vector's indices are its positions. -/
def idxEquiv1 {n : Nat} : (⟨1, ![n]⟩ : Shape).Idx ≃ Fin n where
  toFun i := i 0
  invFun k := ix1 k
  left_inv i := (eq_ix1 i).symm
  right_inv _ := rfl

/-! ## Cells: pairs (row, column) name the cell each update lands on -/

section Cells

/-- The dimension numbers of the scatter onto cells: no window axes, both operand axes inserted and named, in order,
    by the two entries of a start index, the index vector along axis 1. -/
abbrev cellDims (R C N : Nat) (wf : ScatterDims.WF ⟨2, ![R, C]⟩ ⟨2, ![N, 2]⟩ ⟨1, ![N]⟩ [] [0, 1] [0, 1] 1) :
    ScatterDims ⟨2, ![R, C]⟩ ⟨2, ![N, 2]⟩ ⟨1, ![N]⟩ where
  updateWindowDims := []
  insertedWindowDims := [0, 1]
  scatterDimsToOperandDims := [0, 1]
  indexVectorDim := 1
  wf := wf

variable {R C N w : Nat} (wf : ScatterDims.WF ⟨2, ![R, C]⟩ ⟨2, ![N, 2]⟩ ⟨1, ![N]⟩ [] [0, 1] [0, 1] 1)

/-- On the row axis update `k` starts at the first entry of its pair. -/
theorem cell_start0 (idx : IVec ⟨2, ![N, 2]⟩ w) (k : Fin N) :
    (cellDims R C N wf).start (ix1 k) idx 0 = (idx (ix2 k 0)).toInt := by
  unfold ScatterDims.start
  rw [dif_pos (show (0 : Fin 2) ∈ ([0, 1] : List (Fin 2)) by decide)]
  have hsi : (cellDims R C N wf).siIdx (ix1 k) ⟨List.idxOf (0 : Fin 2) (cellDims R C N wf).scatterDimsToOperandDims,
      List.idxOf_lt_length_iff.2 (show (0 : Fin 2) ∈ ([0, 1] : List (Fin 2)) by decide)⟩ = ix2 k 0 := by
    funext b; refine Fin.ext ?_
    match b with
    | ⟨0, _⟩ => rfl
    | ⟨1, _⟩ => rfl
  rw [hsi]

/-- On the column axis it starts at the second entry. -/
theorem cell_start1 (idx : IVec ⟨2, ![N, 2]⟩ w) (k : Fin N) :
    (cellDims R C N wf).start (ix1 k) idx 1 = (idx (ix2 k 1)).toInt := by
  unfold ScatterDims.start
  rw [dif_pos (show (1 : Fin 2) ∈ ([0, 1] : List (Fin 2)) by decide)]
  have hsi : (cellDims R C N wf).siIdx (ix1 k) ⟨List.idxOf (1 : Fin 2) (cellDims R C N wf).scatterDimsToOperandDims,
      List.idxOf_lt_length_iff.2 (show (1 : Fin 2) ∈ ([0, 1] : List (Fin 2)) by decide)⟩ = ix2 k 1 := by
    funext b; refine Fin.ext ?_
    match b with
    | ⟨0, _⟩ => rfl
    | ⟨1, _⟩ => rfl
  rw [hsi]

/-- There is no window: both operand axes are inserted. -/
theorem cell_window (j : (⟨1, ![N]⟩ : Shape).Idx) (a : Fin 2) : (cellDims R C N wf).window j a = 0 := by
  unfold ScatterDims.window
  refine dif_neg ?_
  show ¬ (a ∈ ((List.finRange 2).filter (· ∉ ([0, 1] : List (Fin 2)))))
  revert a
  decide

/-- Update `k` lands on cell (r, c) exactly when its pair, read signed, is (r, c). -/
theorem cell_lands_iff (idx : IVec ⟨2, ![N, 2]⟩ w) (k : Fin N) (r : Fin R) (c : Fin C) :
    (cellDims R C N wf).resultIdx? (ix1 k) idx = some (ix2 r c) ↔
      (idx (ix2 k 0)).toInt = (r.val : Int) ∧ (idx (ix2 k 1)).toInt = (c.val : Int) := by
  rw [resultIdx?_eq_some_iff]
  constructor
  · intro h
    have h0 := h 0
    have h1 := h 1
    rw [cell_start0, cell_window, Nat.cast_zero, add_zero] at h0
    rw [cell_start1, cell_window, Nat.cast_zero, add_zero] at h1
    exact ⟨h0, h1⟩
  · intro h a
    match a with
    | ⟨0, _⟩ =>
      show (cellDims R C N wf).start (ix1 k) idx 0 + ((cellDims R C N wf).window (ix1 k) 0 : Int) = (r.val : Int)
      rw [cell_start0, cell_window, Nat.cast_zero, add_zero]; exact h.1
    | ⟨1, _⟩ =>
      show (cellDims R C N wf).start (ix1 k) idx 1 + ((cellDims R C N wf).window (ix1 k) 1 : Int) = (c.val : Int)
      rw [cell_start1, cell_window, Nat.cast_zero, add_zero]; exact h.2

/-- THE SCATTER ONTO CELLS READ AT (r, c): the operand's cell plus the sum of the updates whose pair is (r, c). -/
theorem scatterAdd_cells_apply {φ : FTy} (x : FVec Ideal ⟨2, ![R, C]⟩ φ) (idx : IVec ⟨2, ![N, 2]⟩ w)
    (upd : FVec Ideal ⟨1, ![N]⟩ φ) (r : Fin R) (c : Fin C) :
    Host.scatterAdd (cellDims R C N wf) x idx upd (ix2 r c)
      = x (ix2 r c) + ∑ k ∈ Finset.univ.filter (fun k : Fin N =>
          (idx (ix2 k 0)).toInt = (r.val : Int) ∧ (idx (ix2 k 1)).toInt = (c.val : Int)), upd (ix1 k) := by
  show Ideal.hostScatterAdd (cellDims R C N wf) x idx upd (ix2 r c) = _
  unfold Ideal.hostScatterAdd
  refine congrArg (x (ix2 r c) + ·) ?_
  refine Finset.sum_equiv idxEquiv1 (fun j => ?_) (fun j _ => congrArg upd (eq_ix1 j))
  rw [Finset.mem_filter, Finset.mem_filter]
  refine and_congr (by simp) ?_
  rw [eq_ix1 j]
  exact cell_lands_iff wf idx (j 0) r c

end Cells

/-! ## Rows: a column of row numbers names the operand row each update row lands on -/

section Rows

/-- The dimension numbers of the scatter onto rows: the updates' axis 1 is the window, the operand's axis 0 is inserted
    and named by the one entry of a start index, the index vector along axis 1. -/
abbrev rowDims (R B N : Nat) (wf : ScatterDims.WF ⟨2, ![R, B]⟩ ⟨2, ![N, 1]⟩ ⟨2, ![N, B]⟩ [1] [0] [0] 1) :
    ScatterDims ⟨2, ![R, B]⟩ ⟨2, ![N, 1]⟩ ⟨2, ![N, B]⟩ where
  updateWindowDims := [1]
  insertedWindowDims := [0]
  scatterDimsToOperandDims := [0]
  indexVectorDim := 1
  wf := wf

variable {R B N w : Nat} (wf : ScatterDims.WF ⟨2, ![R, B]⟩ ⟨2, ![N, 1]⟩ ⟨2, ![N, B]⟩ [1] [0] [0] 1)

/-- On the row axis update (k, b) starts at entry `k` of the column of row numbers. -/
theorem row_start0 (idx : IVec ⟨2, ![N, 1]⟩ w) (k : Fin N) (b : Fin B) :
    (rowDims R B N wf).start (ix2 k b) idx 0 = (idx (ix2 k 0)).toInt := by
  unfold ScatterDims.start
  rw [dif_pos (show (0 : Fin 2) ∈ ([0] : List (Fin 2)) by decide)]
  have hsi : (rowDims R B N wf).siIdx (ix2 k b) ⟨List.idxOf (0 : Fin 2) (rowDims R B N wf).scatterDimsToOperandDims,
      List.idxOf_lt_length_iff.2 (show (0 : Fin 2) ∈ ([0] : List (Fin 2)) by decide)⟩ = ix2 k 0 := by
    funext a; refine Fin.ext ?_
    match a with
    | ⟨0, _⟩ => rfl
    | ⟨1, _⟩ => rfl
  rw [hsi]

/-- On the other axis it starts at zero: no entry names it. -/
theorem row_start1 (idx : IVec ⟨2, ![N, 1]⟩ w) (j : (⟨2, ![N, B]⟩ : Shape).Idx) :
    (rowDims R B N wf).start j idx 1 = 0 := by
  unfold ScatterDims.start
  exact dif_neg (show ¬ ((1 : Fin 2) ∈ ([0] : List (Fin 2))) by decide)

/-- The row axis is inserted: no window coordinate there. -/
theorem row_window0 (j : (⟨2, ![N, B]⟩ : Shape).Idx) : (rowDims R B N wf).window j 0 = 0 := by
  unfold ScatterDims.window
  exact dif_neg (show ¬ ((0 : Fin 2) ∈ ((List.finRange 2).filter (· ∉ ([0] : List (Fin 2))))) by decide)

/-- On the other axis the window coordinate is the update's own. -/
theorem row_window1 (k : Fin N) (b : Fin B) : (rowDims R B N wf).window (ix2 k b) 1 = b.val := by
  unfold ScatterDims.window
  have h1 : (1 : Fin 2) ∈ (rowDims R B N wf).sKept :=
    show (1 : Fin 2) ∈ ((List.finRange 2).filter (· ∉ ([0] : List (Fin 2)))) by decide
  rw [dif_pos h1]
  rfl

/-- Update (k, b') lands on (r, b) exactly when entry `k` of the row numbers, read signed, is `r`, and b' is b. -/
theorem row_lands_iff (idx : IVec ⟨2, ![N, 1]⟩ w) (k : Fin N) (b' : Fin B) (r : Fin R) (b : Fin B) :
    (rowDims R B N wf).resultIdx? (ix2 k b') idx = some (ix2 r b) ↔
      (idx (ix2 k 0)).toInt = (r.val : Int) ∧ b' = b := by
  rw [resultIdx?_eq_some_iff]
  constructor
  · intro h
    have h0 := h 0
    have h1 := h 1
    rw [row_start0, row_window0, Nat.cast_zero, add_zero] at h0
    rw [row_start1, row_window1, zero_add] at h1
    exact ⟨h0, Fin.ext (by exact_mod_cast h1)⟩
  · intro h a
    match a with
    | ⟨0, _⟩ =>
      show (rowDims R B N wf).start (ix2 k b') idx 0 + ((rowDims R B N wf).window (ix2 k b') 0 : Int) = (r.val : Int)
      rw [row_start0, row_window0, Nat.cast_zero, add_zero]; exact h.1
    | ⟨1, _⟩ =>
      show (rowDims R B N wf).start (ix2 k b') idx 1 + ((rowDims R B N wf).window (ix2 k b') 1 : Int) = (b.val : Int)
      rw [row_start1, row_window1, zero_add, h.2]

/-- THE SCATTER ONTO ROWS READ AT (r, b): the operand's entry plus the sum, over the update rows `k` whose row number is
    `r`, of entry `b` of update row `k`. -/
theorem scatterAdd_rows_apply {φ : FTy} (x : FVec Ideal ⟨2, ![R, B]⟩ φ) (idx : IVec ⟨2, ![N, 1]⟩ w)
    (upd : FVec Ideal ⟨2, ![N, B]⟩ φ) (r : Fin R) (b : Fin B) :
    Host.scatterAdd (rowDims R B N wf) x idx upd (ix2 r b)
      = x (ix2 r b) + ∑ k ∈ Finset.univ.filter (fun k : Fin N => (idx (ix2 k 0)).toInt = (r.val : Int)), upd (ix2 k b) := by
  show Ideal.hostScatterAdd (rowDims R B N wf) x idx upd (ix2 r b) = _
  unfold Ideal.hostScatterAdd
  refine congrArg (x (ix2 r b) + ·) ?_
  have lands : ∀ j : (⟨2, ![N, B]⟩ : Shape).Idx, (rowDims R B N wf).resultIdx? j idx = some (ix2 r b) →
      (idx (ix2 (j 0 : Fin N) 0)).toInt = (r.val : Int) ∧ (j 1 : Fin B) = b := by
    intro j hj
    rw [eq_ix2 j] at hj
    exact (row_lands_iff wf idx (j 0) (j 1) r b).mp hj
  refine Finset.sum_bij' (fun j _ => (j 0 : Fin N)) (fun k _ => ix2 k b) ?_ ?_ ?_ ?_ ?_
  · intro j hj
    exact Finset.mem_filter.mpr ⟨Finset.mem_univ _, (lands j (Finset.mem_filter.mp hj).2).1⟩
  · intro k hk
    exact Finset.mem_filter.mpr ⟨Finset.mem_univ _,
      (row_lands_iff wf idx k b r b).mpr ⟨(Finset.mem_filter.mp hk).2, rfl⟩⟩
  · intro j hj
    have hb := (lands j (Finset.mem_filter.mp hj).2).2
    show ix2 (j 0 : Fin N) b = j
    rw [← hb]
    exact (eq_ix2 j).symm
  · intro k _
    rfl
  · intro j hj
    have hb := (lands j (Finset.mem_filter.mp hj).2).2
    show upd j = upd (ix2 (j 0 : Fin N) b)
    rw [← hb]
    exact congrArg upd (eq_ix2 j)

end Rows

/-! ## The row gather -/

section RowGather
variable {α : Type}

/-- The dimension numbers of the row gather for an operand [S, B], start indices [N, 1] and a result [N, B]: the
    result's axis 1 is the offset axis, the operand's axis 0 is collapsed and named by the one entry of a start index,
    slices of shape [1, B]. -/
abbrev rowGatherDims (S B N : Nat)
    (wf : GatherDims.WF ⟨2, ![S, B]⟩ ⟨2, ![N, 1]⟩ ⟨2, ![N, B]⟩ [1] [0] [] [0] [] 1 ![1, B]) :
    GatherDims ⟨2, ![S, B]⟩ ⟨2, ![N, 1]⟩ ⟨2, ![N, B]⟩ where
  offsetDims := [1]
  collapsedSliceDims := [0]
  operandBatchingDims := []
  startIndicesBatchingDims := []
  startIndexMap := [0]
  indexVectorDim := 1
  sliceSizes := ![1, B]
  wf := wf

/-- THE ROW GATHER READ AT (k, b): the operand at the row start index `k` names, read signed and clamped into
    [0, S - 1], and at column `b`. -/
theorem gather_rows_apply {S B N w : Nat} (hS : 0 < S)
    (wf : GatherDims.WF ⟨2, ![S, B]⟩ ⟨2, ![N, 1]⟩ ⟨2, ![N, B]⟩ [1] [0] [] [0] [] 1 ![1, B])
    (x : (⟨2, ![S, B]⟩ : Shape).Idx → α) (idx : IVec ⟨2, ![N, 1]⟩ w) (k : Fin N) (b : Fin B) :
    Host.gather (rowGatherDims S B N wf) x idx (ix2 k b)
      = x (ix2 ⟨min (idx (ix2 k 0)).toInt.toNat (S - 1), by omega⟩ b) := by
  unfold Host.gather
  congr 1
  funext a
  refine Fin.ext ?_
  match a with
  | ⟨0, _⟩ =>
    show (rowGatherDims S B N wf).start (ix2 k b) idx 0 + (rowGatherDims S B N wf).batchCoord (ix2 k b) 0
      + (rowGatherDims S B N wf).offCoord (ix2 k b) 0 = min (idx (ix2 k 0)).toInt.toNat (S - 1)
    rw [GatherDims.batchCoord_eq_zero _ _ _ List.not_mem_nil,
      GatherDims.offCoord_eq_zero _ _ _ (fun h => ((GatherDims.mem_sKept _ _).mp h).1
        (show (0 : Fin 2) ∈ ([0] : List (Fin 2)) by decide))]
    simp only [Nat.add_zero]
    unfold GatherDims.start
    rw [dif_pos (show (0 : Fin 2) ∈ ([0] : List (Fin 2)) by decide)]
    have hsi : (rowGatherDims S B N wf).siIdx (ix2 k b) ⟨List.idxOf (0 : Fin 2) (rowGatherDims S B N wf).startIndexMap,
        List.idxOf_lt_length_iff.2 (show (0 : Fin 2) ∈ ([0] : List (Fin 2)) by decide)⟩ = ix2 k 0 := by
      funext c; refine Fin.ext ?_
      match c with
      | ⟨0, _⟩ => rfl
      | ⟨1, _⟩ => rfl
    rw [hsi]
    rfl
  | ⟨1, _⟩ =>
    show (rowGatherDims S B N wf).start (ix2 k b) idx 1 + (rowGatherDims S B N wf).batchCoord (ix2 k b) 1
      + (rowGatherDims S B N wf).offCoord (ix2 k b) 1 = b.val
    rw [GatherDims.batchCoord_eq_zero _ _ _ List.not_mem_nil]
    unfold GatherDims.start GatherDims.offCoord
    rw [dif_neg (show ¬ ((1 : Fin 2) ∈ ([0] : List (Fin 2))) by decide),
      dif_pos ((GatherDims.mem_sKept _ _).mpr
        ⟨show ¬ ((1 : Fin 2) ∈ ([0] : List (Fin 2))) by decide, List.not_mem_nil⟩)]
    simp only [Nat.add_zero, Nat.zero_add]
    rfl

end RowGather

end Cert.SparseMM

end
-- ==== Proof.LibMidAxis.lean ====
/-
  A gather and an accumulating scatter along the MIDDLE axis of a rank-3 array, read at an entry.

  The operand is [B, K, C]; a column [N, 1] of start indices names, for each n, a row of the middle axis.
  THE GATHER (jnp's x[:, idx, :]) gives [B, N, C]: entry (b, n, c) is the operand at (b, k, c), k the start index n read
  signed and clamped into [0, K - 1].
  THE ACCUMULATING SCATTER (jnp's x.at[:, idx, :].add(u)) of updates [B, N, C] leaves at (b, k, c) the operand's entry plus
  the sum, over the n whose start index read signed (not clamped) is k, of the update at (b, n, c); an update whose start
  index is outside the axis is dropped.
  The hypotheses are the printed dimension numbers, each closed by rfl at the use site.
-/
import Idealize.ShloMosaic.PureOps.Ideal
import Idealize.ShloMosaic.Lib.ValueIdx
import proofs.«429262_j13254269075604_2_alg».proof.Proof.LibScatterRead

noncomputable section

open scoped BigOperators

namespace Cert.MidAxis

open Idealize.ShloMosaic Idealize.ShloMosaic.ValueIdx

/-- An entry of a list, when the list, the position and the entry there are known. -/
private theorem getElem_of_eq {β : Type} {l : List β} {i : Nat} (h : i < l.length) (l' : List β) (i' : Nat)
    (hl : l = l') (hi : i = i') (h' : i' < l'.length) (v : β) (hv : l'[i'] = v) : l[i] = v := by
  subst hl; subst hi; exact hv

/-- Entry (b, n, c) of the gather along the middle axis: the operand at (b, k, c), k start index n read signed and
    clamped into [0, K - 1]. -/
theorem gather_mid_apply {α : Type} {B K C N w : Nat} (hK : 0 < K)
    (d : GatherDims ⟨3, ![B, K, C]⟩ ⟨2, ![N, 1]⟩ ⟨3, ![B, N, C]⟩)
    (hoff : d.offsetDims = [0, 2]) (hcoll : d.collapsedSliceDims = [1]) (hob : d.operandBatchingDims = [])
    (hsim : d.startIndexMap = [1]) (hivd : d.indexVectorDim = 1)
    (x : (⟨3, ![B, K, C]⟩ : Shape).Idx → α) (idx : IVec ⟨2, ![N, 1]⟩ w) (b : Fin B) (n : Fin N) (c : Fin C) :
    Host.gather d x idx (ix3 b n c)
      = x (ix3 b (⟨min (idx (ix2 n (0 : Fin 1))).toInt.toNat (K - 1), by omega⟩ : Fin K) c) := by
  unfold Host.gather
  congr 1
  funext a
  apply Fin.ext
  have hb : ∀ a : Fin 3, a ∉ d.operandBatchingDims := fun a => by rw [hob]; exact List.not_mem_nil
  -- the operand's kept axes are 0 and 2, the result's one batch axis is 1
  have hsk : d.sKept = [0, 2] := by
    show (⟨3, ![B, K, C]⟩ : Shape).kept (d.collapsedSliceDims ++ d.operandBatchingDims) = [0, 2]
    rw [hcoll, hob, List.append_nil]
    show (List.finRange 3).filter (fun a : Fin 3 => a ∉ ([1] : List (Fin 3))) = ([0, 2] : List (Fin 3))
    decide
  have hbd : d.batchDims = [1] := by
    show (⟨3, ![B, N, C]⟩ : Shape).kept d.offsetDims = [1]
    rw [hoff]
    show (List.finRange 3).filter (fun a : Fin 3 => a ∉ ([0, 2] : List (Fin 3))) = ([1] : List (Fin 3))
    decide
  have hall1 : ∀ a ∈ d.batchDims, a = (1 : Fin 3) := by
    rw [hbd]; intro a ha; exact List.mem_singleton.mp ha
  have hlen0 : 0 < ([0, 2] : List (Fin 3)).length := Nat.zero_lt_succ _
  have hlen1 : 1 < ([0, 2] : List (Fin 3)).length := Nat.lt_succ_self _
  match a with
  | ⟨0, _⟩ =>
    -- an offset axis: no start, the result's first coordinate
    have hm : (0 : Fin 3) ∉ d.startIndexMap := by
      rw [hsim]; show (0 : Fin 3) ∉ ([1] : List (Fin 3)); decide
    have hk : (0 : Fin 3) ∈ d.sKept := by
      rw [hsk]; show (0 : Fin 3) ∈ ([0, 2] : List (Fin 3)); decide
    show d.start (ix3 b n c) idx 0 + d.batchCoord (ix3 b n c) 0 + d.offCoord (ix3 b n c) 0 = b.val
    rw [GatherDims.batchCoord_eq_zero _ _ _ (hb 0)]
    unfold GatherDims.start GatherDims.offCoord
    rw [dif_neg hm, dif_pos hk]
    simp only [Nat.add_zero, Nat.zero_add]
    have e : ∀ X : Fin 3, X = 0 → ((ix3 b n c : (⟨3, ![B, N, C]⟩ : Shape).Idx) X).val = b.val := fun X hX => by
      subst hX; rfl
    exact e _ (getElem_of_eq _ [0, 2] 0 hoff (by rw [hsk]; rfl) hlen0 0 rfl)
  | ⟨1, _⟩ =>
    -- the collapsed, start-indexed axis: the clamped start index, nothing added
    have hk : (1 : Fin 3) ∉ d.sKept := by
      rw [hsk]; show (1 : Fin 3) ∉ ([0, 2] : List (Fin 3)); decide
    have hm : (1 : Fin 3) ∈ d.startIndexMap := by rw [hsim]; exact List.mem_singleton.mpr rfl
    have hsl : d.sliceSizes 1 = 1 := d.slice_collapsed 1 (by rw [hcoll]; exact List.mem_singleton.mpr rfl)
    show d.start (ix3 b n c) idx 1 + d.batchCoord (ix3 b n c) 1 + d.offCoord (ix3 b n c) 1 = _
    rw [GatherDims.batchCoord_eq_zero _ _ _ (hb 1), GatherDims.offCoord_eq_zero _ _ _ hk]
    simp only [Nat.add_zero]
    unfold GatherDims.start
    rw [dif_pos hm]
    show min (idx _).toInt.toNat (K - d.sliceSizes 1) = min (idx (ix2 n (0 : Fin 1))).toInt.toNat (K - 1)
    rw [hsl]
    refine congrArg (fun z => min (idx z).toInt.toNat (K - 1)) ?_
    funext b'
    match b' with
    | ⟨0, _⟩ =>
      -- the start indices' row is the result's batch coordinate, its middle one
      unfold GatherDims.siIdx
      rw [dif_neg (by rw [hivd]; simp)]
      unfold GatherDims.siCoord
      apply Fin.ext
      simp only [Fin.val_cast]
      have e : ∀ X : Fin 3, X = 1 → ((ix3 b n c : (⟨3, ![B, N, C]⟩ : Shape).Idx) X).val = n.val := fun X hX => by
        subst hX; rfl
      exact e _ (hall1 _ (List.getElem_mem _))
    | ⟨1, _⟩ =>
      unfold GatherDims.siIdx
      rw [dif_pos (by rw [hivd])]
      apply Fin.ext
      show List.idxOf (1 : Fin 3) d.startIndexMap = 0
      rw [hsim]; simp
  | ⟨2, _⟩ =>
    -- the other offset axis: no start, the result's last coordinate
    have hm : (2 : Fin 3) ∉ d.startIndexMap := by
      rw [hsim]; show (2 : Fin 3) ∉ ([1] : List (Fin 3)); decide
    have hk : (2 : Fin 3) ∈ d.sKept := by
      rw [hsk]; show (2 : Fin 3) ∈ ([0, 2] : List (Fin 3)); decide
    show d.start (ix3 b n c) idx 2 + d.batchCoord (ix3 b n c) 2 + d.offCoord (ix3 b n c) 2 = c.val
    rw [GatherDims.batchCoord_eq_zero _ _ _ (hb 2)]
    unfold GatherDims.start GatherDims.offCoord
    rw [dif_neg hm, dif_pos hk]
    simp only [Nat.add_zero, Nat.zero_add]
    have e : ∀ X : Fin 3, X = 2 → ((ix3 b n c : (⟨3, ![B, N, C]⟩ : Shape).Idx) X).val = c.val := fun X hX => by
      subst hX; rfl
    exact e _ (getElem_of_eq _ [0, 2] 1 hoff (by rw [hsk]; rfl) hlen1 2 rfl)

/-! ## The accumulating scatter: where an update lands -/

section Scatter

variable {B K C N w : Nat} (d : ScatterDims ⟨3, ![B, K, C]⟩ ⟨2, ![N, 1]⟩ ⟨3, ![B, N, C]⟩)

/-- The operand's axes that take a window coordinate are 0 and 2. -/
private theorem sc_sKept (hins : d.insertedWindowDims = [1]) : d.sKept = [0, 2] := by
  show (⟨3, ![B, K, C]⟩ : Shape).kept d.insertedWindowDims = [0, 2]
  rw [hins]
  show (List.finRange 3).filter (fun a : Fin 3 => a ∉ ([1] : List (Fin 3))) = ([0, 2] : List (Fin 3))
  decide

/-- The updates' one scatter axis is the middle one. -/
private theorem sc_uScatter (huw : d.updateWindowDims = [0, 2]) : d.uScatter = [1] := by
  show (⟨3, ![B, N, C]⟩ : Shape).kept d.updateWindowDims = [1]
  rw [huw]
  show (List.finRange 3).filter (fun a : Fin 3 => a ∉ ([0, 2] : List (Fin 3))) = ([1] : List (Fin 3))
  decide

/-- On the middle axis update (b', n, c') starts at entry n of the column of start indices, read signed. -/
private theorem sc_start1 (huw : d.updateWindowDims = [0, 2]) (hsd : d.scatterDimsToOperandDims = [1])
    (hivd : d.indexVectorDim = 1) (idx : IVec ⟨2, ![N, 1]⟩ w) (b' : Fin B) (n : Fin N) (c' : Fin C) :
    d.start (ix3 b' n c') idx 1 = (idx (ix2 n (0 : Fin 1))).toInt := by
  have hm : (1 : Fin 3) ∈ d.scatterDimsToOperandDims := by rw [hsd]; exact List.mem_singleton.mpr rfl
  have hall1 : ∀ a ∈ d.uScatter, a = (1 : Fin 3) := by
    rw [sc_uScatter d huw]; intro a ha; exact List.mem_singleton.mp ha
  unfold ScatterDims.start
  rw [dif_pos hm]
  refine congrArg (fun z => (idx z).toInt) ?_
  funext a
  match a with
  | ⟨0, _⟩ =>
    -- the start indices' row is the update's scatter coordinate, its middle one
    unfold ScatterDims.siIdx
    rw [dif_neg (by rw [hivd]; simp)]
    unfold ScatterDims.siCoord
    apply Fin.ext
    simp only [Fin.val_cast]
    have e : ∀ X : Fin 3, X = 1 → ((ix3 b' n c' : (⟨3, ![B, N, C]⟩ : Shape).Idx) X).val = n.val := fun X hX => by
      subst hX; rfl
    exact e _ (hall1 _ (List.getElem_mem _))
  | ⟨1, _⟩ =>
    unfold ScatterDims.siIdx
    rw [dif_pos (by rw [hivd])]
    apply Fin.ext
    show List.idxOf (1 : Fin 3) d.scatterDimsToOperandDims = 0
    rw [hsd]; simp

/-- On the first axis an update starts at zero: no entry names it. -/
private theorem sc_start0 (hsd : d.scatterDimsToOperandDims = [1]) (idx : IVec ⟨2, ![N, 1]⟩ w)
    (j : (⟨3, ![B, N, C]⟩ : Shape).Idx) : d.start j idx 0 = 0 := by
  unfold ScatterDims.start
  refine dif_neg ?_
  rw [hsd]; show (0 : Fin 3) ∉ ([1] : List (Fin 3)); decide

/-- On the last axis too. -/
private theorem sc_start2 (hsd : d.scatterDimsToOperandDims = [1]) (idx : IVec ⟨2, ![N, 1]⟩ w)
    (j : (⟨3, ![B, N, C]⟩ : Shape).Idx) : d.start j idx 2 = 0 := by
  unfold ScatterDims.start
  refine dif_neg ?_
  rw [hsd]; show (2 : Fin 3) ∉ ([1] : List (Fin 3)); decide

/-- The middle axis is inserted: no window coordinate there. -/
private theorem sc_window1 (hins : d.insertedWindowDims = [1]) (j : (⟨3, ![B, N, C]⟩ : Shape).Idx) :
    d.window j 1 = 0 := by
  unfold ScatterDims.window
  refine dif_neg ?_
  rw [sc_sKept d hins]; show (1 : Fin 3) ∉ ([0, 2] : List (Fin 3)); decide

/-- On the first axis the window coordinate is the update's first coordinate. -/
private theorem sc_window0 (huw : d.updateWindowDims = [0, 2]) (hins : d.insertedWindowDims = [1])
    (b' : Fin B) (n : Fin N) (c' : Fin C) : d.window (ix3 b' n c') 0 = b'.val := by
  have hk : (0 : Fin 3) ∈ d.sKept := by
    rw [sc_sKept d hins]; show (0 : Fin 3) ∈ ([0, 2] : List (Fin 3)); decide
  unfold ScatterDims.window
  rw [dif_pos hk]
  have e : ∀ X : Fin 3, X = 0 → ((ix3 b' n c' : (⟨3, ![B, N, C]⟩ : Shape).Idx) X).val = b'.val := fun X hX => by
    subst hX; rfl
  exact e _ (getElem_of_eq _ [0, 2] 0 huw (by rw [sc_sKept d hins]; rfl) (Nat.zero_lt_succ _) 0 rfl)

/-- On the last axis it is the update's last coordinate. -/
private theorem sc_window2 (huw : d.updateWindowDims = [0, 2]) (hins : d.insertedWindowDims = [1])
    (b' : Fin B) (n : Fin N) (c' : Fin C) : d.window (ix3 b' n c') 2 = c'.val := by
  have hk : (2 : Fin 3) ∈ d.sKept := by
    rw [sc_sKept d hins]; show (2 : Fin 3) ∈ ([0, 2] : List (Fin 3)); decide
  unfold ScatterDims.window
  rw [dif_pos hk]
  have e : ∀ X : Fin 3, X = 2 → ((ix3 b' n c' : (⟨3, ![B, N, C]⟩ : Shape).Idx) X).val = c'.val := fun X hX => by
    subst hX; rfl
  exact e _ (getElem_of_eq _ [0, 2] 1 huw (by rw [sc_sKept d hins]; rfl) (Nat.lt_succ_self _) 2 rfl)

/-- Update (b', n, c') lands on (b, k, c) exactly when start index n, read signed, is k, and b' is b and c' is c. -/
private theorem mid_lands_iff (huw : d.updateWindowDims = [0, 2]) (hins : d.insertedWindowDims = [1])
    (hsd : d.scatterDimsToOperandDims = [1]) (hivd : d.indexVectorDim = 1) (idx : IVec ⟨2, ![N, 1]⟩ w)
    (b' : Fin B) (n : Fin N) (c' : Fin C) (b : Fin B) (k : Fin K) (c : Fin C) :
    d.resultIdx? (ix3 b' n c') idx = some (ix3 b k c) ↔
      (idx (ix2 n (0 : Fin 1))).toInt = (k.val : Int) ∧ b' = b ∧ c' = c := by
  rw [Cert.SparseMM.resultIdx?_eq_some_iff]
  constructor
  · intro h
    have h0 := h 0
    have h1 := h 1
    have h2 := h 2
    rw [sc_start0 d hsd, sc_window0 d huw hins, zero_add] at h0
    rw [sc_start1 d huw hsd hivd, sc_window1 d hins, Nat.cast_zero, add_zero] at h1
    rw [sc_start2 d hsd, sc_window2 d huw hins, zero_add] at h2
    exact ⟨h1, Fin.ext (by exact_mod_cast h0), Fin.ext (by exact_mod_cast h2)⟩
  · rintro ⟨h1, rfl, rfl⟩ a
    match a with
    | ⟨0, _⟩ =>
      show d.start (ix3 b' n c') idx 0 + (d.window (ix3 b' n c') 0 : Int) = (b'.val : Int)
      rw [sc_start0 d hsd, sc_window0 d huw hins, zero_add]
    | ⟨1, _⟩ =>
      show d.start (ix3 b' n c') idx 1 + (d.window (ix3 b' n c') 1 : Int) = (k.val : Int)
      rw [sc_start1 d huw hsd hivd, sc_window1 d hins, Nat.cast_zero, add_zero]; exact h1
    | ⟨2, _⟩ =>
      show d.start (ix3 b' n c') idx 2 + (d.window (ix3 b' n c') 2 : Int) = (c'.val : Int)
      rw [sc_start2 d hsd, sc_window2 d huw hins, zero_add]

end Scatter

/-- Entry (b, k, c) after the accumulating scatter along the middle axis: the operand's entry plus the sum of the updates
    (b, n, c) over the n whose start index, read signed, is k. -/
theorem scatterAdd_mid_apply {φ : FTy} {B K C N w : Nat}
    (d : ScatterDims ⟨3, ![B, K, C]⟩ ⟨2, ![N, 1]⟩ ⟨3, ![B, N, C]⟩)
    (huw : d.updateWindowDims = [0, 2]) (hins : d.insertedWindowDims = [1]) (hsd : d.scatterDimsToOperandDims = [1])
    (hivd : d.indexVectorDim = 1)
    (x : FVec Ideal ⟨3, ![B, K, C]⟩ φ) (idx : IVec ⟨2, ![N, 1]⟩ w) (upd : FVec Ideal ⟨3, ![B, N, C]⟩ φ)
    (b : Fin B) (k : Fin K) (c : Fin C) :
    Host.scatterAdd d x idx upd (ix3 b k c)
      = x (ix3 b k c) + ∑ n ∈ Finset.univ.filter (fun n : Fin N => (idx (ix2 n (0 : Fin 1))).toInt = (k.val : Int)),
          upd (ix3 b n c) := by
  show Ideal.hostScatterAdd d x idx upd (ix3 b k c) = _
  unfold Ideal.hostScatterAdd
  refine congrArg (x (ix3 b k c) + ·) ?_
  -- an update that lands on (b, k, c) is (b, n, c) for an n whose start index is k
  have lands : ∀ j : (⟨3, ![B, N, C]⟩ : Shape).Idx, d.resultIdx? j idx = some (ix3 b k c) →
      (idx (ix2 (j 1 : Fin N) (0 : Fin 1))).toInt = (k.val : Int) ∧ j = ix3 b (j 1 : Fin N) c := by
    intro j hj
    obtain ⟨b', n', c', rfl⟩ : ∃ (b' : Fin B) (n' : Fin N) (c' : Fin C), j = ix3 b' n' c' := ⟨_, _, _, eq_ix3 j⟩
    obtain ⟨h1, rfl, rfl⟩ := (mid_lands_iff d huw hins hsd hivd idx b' n' c' b k c).mp hj
    exact ⟨h1, rfl⟩
  refine Finset.sum_bij' (fun j _ => (j 1 : Fin N)) (fun n _ => ix3 b n c) ?_ ?_ ?_ ?_ ?_
  · intro j hj
    exact Finset.mem_filter.mpr ⟨Finset.mem_univ _, (lands j (Finset.mem_filter.mp hj).2).1⟩
  · intro n hn
    exact Finset.mem_filter.mpr ⟨Finset.mem_univ _,
      (mid_lands_iff d huw hins hsd hivd idx b n c b k c).mpr ⟨(Finset.mem_filter.mp hn).2, rfl, rfl⟩⟩
  · intro j hj
    exact (lands j (Finset.mem_filter.mp hj).2).2.symm
  · intro n _
    rfl
  · intro j hj
    exact congrArg upd (lands j (Finset.mem_filter.mp hj).2).2

end Cert.MidAxis

end
-- ==== Proof.RefIsG.lean ====
/-
  The reference computes the specification: entry (b, k, c) of its result is the sum, over the terms n whose output row
  is k, of x1(b, m1 n, c) · x2(b, m2 n, c) · cg n · weight(b, li n, c).

  The reference first adds the axis length to a negative index word; on words that are not negative this changes
  nothing. Its three gathers along the middle axis read the row the word names, clamped; its accumulating scatter from
  zero leaves at (b, k, c) the sum of the update rows whose index is k.
-/
import proofs.«429262_j13254269075604_2_alg».proof.Proof.Gen.ReferenceIdeal.Read
import proofs.«429262_j13254269075604_2_alg».proof.Proof.Spec
import proofs.«429262_j13254269075604_2_alg».proof.Proof.LibMidAxis
import Idealize.ShloMosaic.Lib.WordArith
import Idealize.ShloMosaic.PureOps.Ideal.Laws

noncomputable section

open scoped BigOperators

namespace Cert.WTP

open Idealize.ShloMosaic Idealize.ShloMosaic.ValueIdx Cert.ReferenceIdeal

/-! ## Words: the wrap of a negative index leaves a word that is not negative alone -/

/-- "Add a to w if w is below zero, signed" is w when w is not negative. -/
theorem wrap_of_nonneg (w a : BitVec 32) (h : 0 ≤ w.toInt) :
    Scalar.select (IntOp.cmpi .slt w 0#32) (IntOp.addi w a) w = w := by
  have hb : IntOp.cmpi .slt w 0#32 = 0#1 := by
    apply eq_zero_of_ne_one
    intro h1
    unfold IntOp.cmpi at h1
    rw [WordArith.ofBool_eq_one_iff] at h1
    have h2 := BitVec.slt_iff_toInt_lt.1 h1
    rw [BitVec.toInt_zero] at h2
    omega
  rw [hb, select_zero]

/-- The word of a number below 2³¹ is not negative. -/
theorem ofNat_nonneg (j : Nat) (hj : j < 2 ^ 31) : 0 ≤ (BitVec.ofNat 32 j).toInt := by
  rw [WordArith.toInt_ofNat_small j hj]
  exact Int.natCast_nonneg j

/-- A word that is the word of a row of an axis of length K (K small) is not negative. -/
theorem nonneg_of_row {K : Nat} (hK : K < 2 ^ 31) (w : BitVec 32) (h : ∃ j : Fin K, w = BitVec.ofNat 32 j.val) :
    0 ≤ w.toInt := by
  obtain ⟨j, rfl⟩ := h
  exact ofNat_nonneg _ (by have := j.isLt; omega)

/-! ## The four index columns -/

/-- Entry (n, 0) of a column laid from a vector of 1000 entries reads entry n of the vector. -/
theorem col_idx (n : Fin 1000) : Read.idx_main_v32 (ix2 n (0 : Fin 1)) = ix1 n := by
  funext a; match a with | ⟨0, _⟩ => rfl

/-- The column of output rows at (n, 0) is the word mo n, when that word is not negative. -/
theorem col_mo (x4 : IVec S1000 32) (n : Fin 1000) (h : 0 ≤ (x4 (ix1 n)).toInt) :
    Read.val_main_v32 (F := Ideal) x4 (ix2 n (0 : Fin 1)) = x4 (ix1 n) := by
  rw [Read.val_main_v32_apply, col_idx, Read.val_main_v31_apply, Read.val_main_v28_apply, Read.val_main_v30_apply]
  exact wrap_of_nonneg _ _ h

/-- The column of the first operand's rows at (n, 0) is the word m1 n, when that word is not negative. -/
theorem col_m1 (x5 : IVec S1000 32) (n : Fin 1000) (h : 0 ≤ (x5 (ix1 n)).toInt) :
    Read.val_main_v5 (F := Ideal) x5 (ix2 n (0 : Fin 1)) = x5 (ix1 n) := by
  have hi : Read.idx_main_v5 (ix2 n (0 : Fin 1)) = ix1 n := col_idx n
  rw [Read.val_main_v5_apply, hi, Read.val_main_v4_apply, Read.val_main_v1_apply, Read.val_main_v3_apply]
  exact wrap_of_nonneg _ _ h

/-- The column of the second operand's rows at (n, 0) is the word m2 n, when that word is not negative. -/
theorem col_m2 (x6 : IVec S1000 32) (n : Fin 1000) (h : 0 ≤ (x6 (ix1 n)).toInt) :
    Read.val_main_v12 (F := Ideal) x6 (ix2 n (0 : Fin 1)) = x6 (ix1 n) := by
  have hi : Read.idx_main_v12 (ix2 n (0 : Fin 1)) = ix1 n := col_idx n
  rw [Read.val_main_v12_apply, hi, Read.val_main_v11_apply, Read.val_main_v8_apply, Read.val_main_v10_apply]
  exact wrap_of_nonneg _ _ h

/-- The column of the weights' rows at (n, 0) is the word li n, when that word is not negative. -/
theorem col_li (x7 : IVec S1000 32) (n : Fin 1000) (h : 0 ≤ (x7 (ix1 n)).toInt) :
    Read.val_main_v23 (F := Ideal) x7 (ix2 n (0 : Fin 1)) = x7 (ix1 n) := by
  have hi : Read.idx_main_v23 (ix2 n (0 : Fin 1)) = ix1 n := col_idx n
  rw [Read.val_main_v23_apply, hi, Read.val_main_v22_apply, Read.val_main_v19_apply, Read.val_main_v21_apply]
  exact wrap_of_nonneg _ _ h

/-! ## The gathers: entry (b, n, c) is the operand at the row the word names -/

/-- The gather of an operand with 25 rows, at (b, n, c), given the word at (n, 0) of its index column. -/
theorem gather25_apply (x : FVec Ideal S4096x25x64 .f32) (idx : IVec S1000x1 32) (w : BitVec 32)
    (b : Fin 4096) (n : Fin 1000) (c : Fin 64) (h : idx (ix2 n (0 : Fin 1)) = w) :
    Host.gather gather_S4096x25x64_S1000x1_S4096x1000x64_02_1_n_n_1_1_4096164 x idx (ix3 b n c)
      = x (ix3 b (rowOf 25 (by decide) w) c) := by
  subst h
  exact Cert.MidAxis.gather_mid_apply (by decide) _ rfl rfl rfl rfl rfl x idx b n c

/-- The gather of the weights, 55 rows, at (b, n, c), given the word at (n, 0) of its index column. -/
theorem gather55_apply (x : FVec Ideal S4096x55x64 .f32) (idx : IVec S1000x1 32) (w : BitVec 32)
    (b : Fin 4096) (n : Fin 1000) (c : Fin 64) (h : idx (ix2 n (0 : Fin 1)) = w) :
    Host.gather gather_S4096x55x64_S1000x1_S4096x1000x64_02_1_n_n_1_1_4096164 x idx (ix3 b n c)
      = x (ix3 b (rowOf 55 (by decide) w) c) := by
  subst h
  exact Cert.MidAxis.gather_mid_apply (by decide) _ rfl rfl rfl rfl rfl x idx b n c

/-! ## The update rows are the terms -/

/-- The coefficient vector laid over batches and channels reads cg n at (b, n, c). -/
theorem cg_apply (x3 : FVec Ideal S1000 .f32) (b : Fin 4096) (n : Fin 1000) (c : Fin 64) :
    Read.val_main_v16 (F := Ideal) x3 (ix3 b n c) = x3 (ix1 n) := by
  rw [Read.val_main_v16_apply, Read.val_main_v15_apply]
  congr 1
  funext a; match a with | ⟨0, _⟩ => rfl

/-- Row n of the updates at batch b and channel c is term n: ((x1 row · x2 row) · cg n) · weight row. -/
theorem upd_apply (x0 x1 : FVec Ideal S4096x25x64 .f32) (x2 : FVec Ideal S4096x55x64 .f32) (x3 : FVec Ideal S1000 .f32)
    (x4 x5 x6 x7 : IVec S1000 32) (hR : Ranges x4 x5 x6 x7) (b : Fin 4096) (n : Fin 1000) (c : Fin 64) :
    Read.val_main_v25 (F := Ideal) x0 x1 x2 x3 x5 x6 x7 (ix3 b n c) = term x0 x1 x2 x3 x5 x6 x7 b c n := by
  have e1 : Read.val_main_v6 (F := Ideal) x0 x5 (ix3 b n c) = x0 (ix3 b (rowOf 25 (by decide) (x5 (ix1 n))) c) :=
    gather25_apply x0 _ _ b n c (col_m1 x5 n (nonneg_of_row (by decide) _ (hR.m1_lt n)))
  have e2 : Read.val_main_v13 (F := Ideal) x1 x6 (ix3 b n c) = x1 (ix3 b (rowOf 25 (by decide) (x6 (ix1 n))) c) :=
    gather25_apply x1 _ _ b n c (col_m2 x6 n (nonneg_of_row (by decide) _ (hR.m2_lt n)))
  have e3 : Read.val_main_v24 (F := Ideal) x2 x7 (ix3 b n c) = x2 (ix3 b (rowOf 55 (by decide) (x7 (ix1 n))) c) :=
    gather55_apply x2 _ _ b n c (col_li x7 n (nonneg_of_row (by decide) _ (hR.li_lt n)))
  rw [Read.val_main_v25_apply, Read.val_main_v17_apply, Read.val_main_v14_apply, e1, e2, e3, cg_apply]
  rfl

/-! ## The scatter from zero sums the update rows whose output row is k -/

/-- The reference's result term at entry (b, k, c) is the specification there, when the index words are in range. -/
theorem ref_apply (x0 x1 : FVec Ideal S4096x25x64 .f32) (x2 : FVec Ideal S4096x55x64 .f32) (x3 : FVec Ideal S1000 .f32)
    (x4 x5 x6 x7 : IVec S1000 32) (hR : Ranges x4 x5 x6 x7) (b : Fin 4096) (k : Fin 25) (c : Fin 64) :
    Cert.ReferenceIdeal.Read.val_main_v33 (F := Ideal) x0 x1 x2 x3 x4 x5 x6 x7 (ix3 b k c)
      = Gat x0 x1 x2 x3 x4 x5 x6 x7 b k c := by
  have h0 : Read.val_main_v26 (F := Ideal) (ix3 b k c) = 0 := by
    rw [Read.val_main_v26_apply, Read.val_main_cst_apply]
    exact Ideal.ofBits_zero_f32
  unfold Read.val_main_v33
  refine (Cert.MidAxis.scatterAdd_mid_apply _ rfl rfl rfl rfl _ _ _ b k c).trans ?_
  rw [h0, zero_add]
  unfold Gat
  refine Finset.sum_congr (Finset.filter_congr (fun n _ => ?_)) (fun n _ => upd_apply x0 x1 x2 x3 x4 x5 x6 x7 hR b n c)
  rw [col_mo x4 n (hR.mo_nonneg n)]

end Cert.WTP

end
-- ==== Proof.Bridge.lean ====
/-
  The two programs' results are one array: at every entry both are the specification's segment sum of gathered
  products, when the index words are in range.
-/
import proofs.«429262_j13254269075604_2_alg».proof.Proof.KVal
import proofs.«429262_j13254269075604_2_alg».proof.Proof.RefIsG

noncomputable section

namespace Cert.WTP

open Idealize.ShloMosaic Idealize.ShloMosaic.TcCoe Idealize.SL.Sem Idealize.ShloMosaic.ValueIdx

/-- The reference's result term of the kernel program's arguments is the kernel program's result. -/
theorem results_eq (m : (ℓ : Loc Cert.KernelIdeal.nD Cert.KernelIdeal.τ Cert.KernelIdeal.sig) → Buf (Elt Ideal) ℓ)
    (c : Dev Cert.KernelIdeal.nD)
    (hR : Ranges (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6))
      (m ((c : Thread Cert.KernelIdeal.nD Cert.KernelIdeal.τ).loc Cert.KernelIdeal.main_arg7))) :
    Cert.ReferenceIdeal.Read.val_main_v33 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
        (m ((c : Thread Cert.KernelIdeal.nD Cert.KernelIdeal.τ).loc Cert.KernelIdeal.main_arg6))
        (m ((c : Thread Cert.KernelIdeal.nD Cert.KernelIdeal.τ).loc Cert.KernelIdeal.main_arg7))
      = Pipeline.afterTail₀ Cert.KernelIdeal.cfgs (Cert.KernelIdeal.Gen.dats m) 0 (Cert.KernelIdeal.Gen.V0 m)
          [Cert.KernelIdeal.Gen.hostOps1] c Cert.KernelIdeal.main_v21 := by
  funext i
  obtain ⟨b, k, ch, rfl⟩ : ∃ (b : Fin 4096) (k : Fin 25) (ch : Fin 64), i = ix3 b k ch := ⟨i 0, i 1, i 2, eq_ix3 i⟩
  exact (ref_apply _ _ _ _ _ _ _ _ hR b k ch).trans (kernel_apply m c hR b k ch).symm

end Cert.WTP

end
-- ==== Proof.PreRead.lean ====
/-
  What the precondition says of the four index vectors: every output row is not negative, and every gathered row is a
  row of the axis it indexes (below 25 for the two operands, below 55 for the weights).

  The precondition is a conjunction of "all entries satisfy a comparison" facts; each is a reduction by "and" of a
  vector of comparison bits from the bit 1, which is 1 exactly when every bit is 1. A word that is not negative and is
  below a small bound, both read signed, is the word of a number below that bound.
-/
import proofs.«429262_j13254269075604_2_alg».proof.Pre_finite_inputs
import proofs.«429262_j13254269075604_2_alg».proof.Proof.Gen.Pre_finite_inputs
import proofs.«429262_j13254269075604_2_alg».proof.Proof.Spec
import Idealize.ShloMosaic.Lib.ReduceAll
import Idealize.ShloMosaic.Lib.StableHlo.Predicate

noncomputable section

namespace Cert.WTP

open Idealize.ShloMosaic Idealize.ShloMosaic.ValueIdx

open Idealize.ShloMosaic.StableHlo.Predicate Cert.Pre_finite_inputs

/-- The scalar shape has one index. -/
instance subsingleton_scalar_idx : Subsingleton S_.Idx := ⟨fun _ _ => funext fun d => d.elim0⟩

/-- A word that compares "not below zero", signed, has a value that is not negative. -/
theorem nonneg_of_sge (w : BitVec 32) (h : IntOp.cmpi .sge w (0#32) = 1#1) : 0 ≤ w.toInt := by
  unfold IntOp.cmpi at h
  rw [ofBool_eq_one_iff] at h
  have h' := BitVec.sle_iff_toInt_le.1 h
  simpa using h'

/-- A word that compares "below the word of K", signed, has a value below K (K small). -/
theorem lt_of_slt (w : BitVec 32) (K : Nat) (hK : K < 2 ^ 31) (h : IntOp.cmpi .slt w (BitVec.ofNat 32 K) = 1#1) :
    w.toInt < (K : Int) := by
  unfold IntOp.cmpi at h
  rw [ofBool_eq_one_iff] at h
  have h' := BitVec.slt_iff_toInt_lt.1 h
  rwa [toInt_ofNat_small K hK] at h'

/-- A word whose signed value is in [0, K) is the word of a number below K. -/
theorem word_of_range (w : BitVec 32) (K : Nat) (hK : K < 2 ^ 31) (h0 : 0 ≤ w.toInt) (h1 : w.toInt < (K : Int)) :
    ∃ k : Fin K, w = BitVec.ofNat 32 k.val := by
  have hk : w.toInt.toNat < K := by omega
  refine ⟨⟨w.toInt.toNat, hk⟩, BitVec.eq_of_toInt_eq ?_⟩
  show w.toInt = (BitVec.ofNat 32 w.toInt.toNat).toInt
  rw [toInt_ofNat_small _ (by omega)]
  omega

/-- An "all" of the comparison of a vector of words with a scalar constant, when 1, gives the comparison at every entry. -/
theorem all_cmp (p : CmpIPredicate) (a : IVec S1000 32) (c : BitVec 32) (hb : S_.BroadcastsInDim S1000 (![] : Fin 0 → Fin S1000.rank))
    (hr : S1000.ReducesTo [0] S_) (hS : 0 < S_.numel)
    (h : Host.reduce IntOp.andi (cmpi p a (broadcastInDim S1000 ![] hb (constantI S_ 32 c))) (constantI S_ 1 1#1) hr hS ix0 = 1#1)
    (n : Fin 1000) : IntOp.cmpi p (a (ix1 n)) c = 1#1 := by
  have e := Host.reduce_andi_all _ _ hr hS ix0 h (ix1 n)
  have eb : broadcastInDim S1000 ![] hb (constantI S_ 32 c) (ix1 n) = c := bcast_scalar hb hS _ _
  change IntOp.cmpi p (a (ix1 n)) (broadcastInDim S1000 ![] hb (constantI S_ 32 c) (ix1 n)) = 1#1 at e
  rwa [eb] at e

/-- The precondition, all ones, gives the ranges of the index words. -/
theorem ranges_of_pre {F : FTy → Type} [FloatOps F]
    (a0 a1 : FVec F Cert.Pre_finite_inputs.S4096x25x64 .f32) (a2 : FVec F Cert.Pre_finite_inputs.S4096x55x64 .f32)
    (a3 : FVec F Cert.Pre_finite_inputs.S1000 .f32) (a4 a5 a6 a7 : IVec Cert.Pre_finite_inputs.S1000 32)
    (h : Cert.Pre_finite_inputs.fn (F := F) a0 a1 a2 a3 a4 a5 a6 a7 = fun _ => 1#1) :
    Ranges a4 a5 a6 a7 := by
  have e := congrFun h ix0
  unfold Cert.Pre_finite_inputs.fn Cert.Pre_finite_inputs.fn_part1 Cert.Pre_finite_inputs.fn_part2 at e
  simp only [andi, IntOp.andi_eq_one] at e
  obtain ⟨⟨⟨⟨⟨⟨⟨-, h4⟩, h5a⟩, h5b⟩, h6a⟩, h6b⟩, h7a⟩, h7b⟩ := e
  refine ⟨fun n => ?_, fun n => ?_, fun n => ?_, fun n => ?_⟩
  · exact nonneg_of_sge _ (all_cmp .sge a4 _ _ _ _ h4 n)
  · exact word_of_range _ 25 (by decide) (nonneg_of_sge _ (all_cmp .sge a5 _ _ _ _ h5a n))
      (lt_of_slt _ 25 (by decide) (all_cmp .slt a5 _ _ _ _ h5b n))
  · exact word_of_range _ 25 (by decide) (nonneg_of_sge _ (all_cmp .sge a6 _ _ _ _ h6a n))
      (lt_of_slt _ 25 (by decide) (all_cmp .slt a6 _ _ _ _ h6b n))
  · exact word_of_range _ 55 (by decide) (nonneg_of_sge _ (all_cmp .sge a7 _ _ _ _ h7a n))
      (lt_of_slt _ 55 (by decide) (all_cmp .slt a7 _ _ _ _ h7b n))

end Cert.WTP

end
-- ==== Proof.lean ====
/- The weighted tensor product with a segment sum, computed by a kernel as four matrix products with one-hot matrices
   over re-laid operands, against gathers along the middle axis and an accumulating scatter: the certificate's claims.

   The three frames are the generated ones (the reference's is its generated run with the result dropped). The
   idealization rewrote nothing, so "preserves" is trivial. For the value claim both programs are run from memories that
   agree on the arguments; the precondition gives the ranges of the four index vectors, under which both results are,
   entry by entry, the sum over the terms n with output row k of x1(b, m1 n, c) · x2(b, m2 n, c) · cg n · weight(b, li n, c). -/
import proofs.«429262_j13254269075604_2_alg».proof.Defs
import proofs.«429262_j13254269075604_2_alg».proof.Proof.Gen.Kernel
import proofs.«429262_j13254269075604_2_alg».proof.Proof.Gen.Kernel.Skeleton
import proofs.«429262_j13254269075604_2_alg».proof.Proof.Gen.Kernel.Launch
import proofs.«429262_j13254269075604_2_alg».proof.Proof.Gen.Kernel.Points
import proofs.«429262_j13254269075604_2_alg».proof.Proof.Gen.Kernel.Frame
import proofs.«429262_j13254269075604_2_alg».proof.Proof.Gen.KernelIdeal
import proofs.«429262_j13254269075604_2_alg».proof.Proof.Gen.KernelIdeal.Skeleton
import proofs.«429262_j13254269075604_2_alg».proof.Proof.Gen.KernelIdeal.Launch
import proofs.«429262_j13254269075604_2_alg».proof.Proof.Gen.KernelIdeal.Points
import proofs.«429262_j13254269075604_2_alg».proof.Proof.Gen.KernelIdeal.Frame
import proofs.«429262_j13254269075604_2_alg».proof.Proof.Gen.ReferenceIdeal
import proofs.«429262_j13254269075604_2_alg».proof.Proof.Gen.ReferenceIdeal.Run
import proofs.«429262_j13254269075604_2_alg».proof.Proof.Gen.ReferenceIdeal.Read
import proofs.«429262_j13254269075604_2_alg».proof.Proof.Gen.Pre_finite_inputs
import proofs.«429262_j13254269075604_2_alg».proof.Proof.Bridge
import proofs.«429262_j13254269075604_2_alg».proof.Proof.PreRead
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end; the kernel program's result is named, and the reference's result, a term of arguments that agree
    with the kernel program's, is the same array because the index words are in range. -/
theorem algebraic : Cert.algebraic_KernelIdeal_ReferenceIdeal := by
  intro m ρ m' ρ' hpre hagree
  have hR := fun c => Cert.WTP.ranges_of_pre (F := Ideal) _ _ _ _ _ _ _ _ (hpre c)
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v21, Cert.WTP.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [h0, h1, h2, h3, h4, h5, h6, h7]
  exact (Cert.ReferenceIdeal.Read.val_main_v33_eq _ _ _ _ _ _ _ _).trans (Cert.WTP.results_eq m c (hR c))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
